-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v70)) (v1 : (c : Dev Cert.KernelIdeal.nD) → Buf (Elt Ideal) ((c.tc : Thread Cert.KernelIdeal.nD Cert.KernelIdeal.τ).loc Cert.KernelIdeal.main_arg1)) (v2 : (c : Dev Cert.KernelIdeal.nD) → Buf (Elt Ideal) ((c.tc : Thread Cert.KernelIdeal.nD Cert.KernelIdeal.τ).loc Cert.KernelIdeal.main_arg2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v70) = v0 c
          ∧ r.2.mem ((c.tc : Thread Cert.KernelIdeal.nD Cert.KernelIdeal.τ).loc Cert.KernelIdeal.main_arg1) = v1 c
          ∧ r.2.mem ((c.tc : Thread Cert.KernelIdeal.nD Cert.KernelIdeal.τ).loc Cert.KernelIdeal.main_arg2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_arg2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192x8192x2 : Shape := ⟨3, ![8192, 8192, 2]⟩
abbrev S_ : Shape := ⟨0, ![]⟩
abbrev S128x32 : Shape := ⟨2, ![128, 32]⟩
abbrev S32 : Shape := ⟨1, ![32]⟩
abbrev S8192x32 : Shape := ⟨2, ![8192, 32]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S8192x8192x2 : S_.BroadcastsInDim S8192x8192x2 (![] : Fin 0 → Fin S8192x8192x2.rank)
  reducesTo_S8192x8192x2_S_d0_1_2 : S8192x8192x2.ReducesTo [0, 1, 2] S_
  reducesTo_S_S_d : S_.ReducesTo [] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S8192x32 : S_.BroadcastsInDim S8192x32 (![] : Fin 0 → Fin S8192x32.rank)
  reducesTo_S8192x32_S_d0_1 : S8192x32.ReducesTo [0, 1] S_

variable [Facts]

def fn_part2 {F : FTy → Type} [FloatOps F] (main_arg8 : FVec F S32 .f32) (main_v32 : IVec S_ 1) (main_v33 : FVec F S32 .f32) : IVec S_ 1 :=
  let main_cst_12 : FVec F S_ .f32 := constant S_ .f32 0x7F800000#32
  let main_v34 : FVec F S32 .f32 := broadcastInDim S32 ![] bcast_S_S32 main_cst_12
  let main_v35 : IVec S32 1 := cmpf .olt main_v33 main_v34
  let main_c_13 : IVec S_ 1 := constantI S_ 1 1#1
  let main_v36 : IVec S_ 1 := (fun x v => Host.reduce IntOp.andi x v reducesTo_S32_S_d0 h_S_) main_v35 main_c_13
  let main_v37 : IVec S_ 1 := andi main_v32 main_v36
  let main_v38 : FVec F S32 .f32 := Host.absf main_arg8
  let main_cst_14 : FVec F S_ .f32 := constant S_ .f32 0x7F800000#32
  let main_v39 : FVec F S32 .f32 := broadcastInDim S32 ![] bcast_S_S32 main_cst_14
  let main_v40 : IVec S32 1 := cmpf .olt main_v38 main_v39
  let main_c_15 : IVec S_ 1 := constantI S_ 1 1#1
  let main_v41 : IVec S_ 1 := (fun x v => Host.reduce IntOp.andi x v reducesTo_S32_S_d0 h_S_) main_v40 main_c_15
  let main_v42 : IVec S_ 1 := andi main_v37 main_v41
  main_v42

def fn_part1 {F : FTy → Type} [FloatOps F] (main_arg4 : FVec F S128x32 .f32) (main_arg5 : FVec F S32 .f32) (main_arg6 : FVec F S8192x32 .f32) (main_arg7 : FVec F S32 .f32) (main_arg8 : FVec F S32 .f32) (main_v13 : IVec S_ 1) (main_v15 : IVec S_ 1) (main_c_5 : IVec S_ 1) : IVec S_ 1 :=
  let main_v16 : IVec S_ 1 := (fun x v => Host.reduce IntOp.andi x v reducesTo_S_S_d h_S_) main_v15 main_c_5
  let main_v17 : IVec S_ 1 := andi main_v13 main_v16
  let main_v18 : FVec F S128x32 .f32 := Host.absf main_arg4
  let main_cst_6 : FVec F S_ .f32 := constant S_ .f32 0x7F800000#32
  let main_v19 : FVec F S128x32 .f32 := broadcastInDim S128x32 ![] bcast_S_S128x32 main_cst_6
  let main_v20 : IVec S128x32 1 := cmpf .olt main_v18 main_v19
  let main_c_7 : IVec S_ 1 := constantI S_ 1 1#1
  let main_v21 : IVec S_ 1 := (fun x v => Host.reduce IntOp.andi x v reducesTo_S128x32_S_d0_1 h_S_) main_v20 main_c_7
  let main_v22 : IVec S_ 1 := andi main_v17 main_v21
  let main_v23 : FVec F S32 .f32 := Host.absf main_arg5
  let main_cst_8 : FVec F S_ .f32 := constant S_ .f32 0x7F800000#32
  let main_v24 : FVec F S32 .f32 := broadcastInDim S32 ![] bcast_S_S32 main_cst_8
  let main_v25 : IVec S32 1 := cmpf .olt main_v23 main_v24
  let main_c_9 : IVec S_ 1 := constantI S_ 1 1#1
  let main_v26 : IVec S_ 1 := (fun x v => Host.reduce IntOp.andi x v reducesTo_S32_S_d0 h_S_) main_v25 main_c_9
  let main_v27 : IVec S_ 1 := andi main_v22 main_v26
  let main_v28 : FVec F S8192x32 .f32 := Host.absf main_arg6
  let main_cst_10 : FVec F S_ .f32 := constant S_ .f32 0x7F800000#32
  let main_v29 : FVec F S8192x32 .f32 := broadcastInDim S8192x32 ![] bcast_S_S8192x32 main_cst_10
  let main_v30 : IVec S8192x32 1 := cmpf .olt main_v28 main_v29
  let main_c_11 : IVec S_ 1 := constantI S_ 1 1#1
  let main_v31 : IVec S_ 1 := (fun x v => Host.reduce IntOp.andi x v reducesTo_S8192x32_S_d0_1 h_S_) main_v30 main_c_11
  let main_v32 : IVec S_ 1 := andi main_v27 main_v31
  let main_v33 : FVec F S32 .f32 := Host.absf main_arg7
  fn_part2 (F := F) main_arg8 main_v32 main_v33

def fn {F : FTy → Type} [FloatOps F] (main_arg0 : FVec F S8192x128 .f32) (main_arg1 : FVec F S8192x8192x2 .f32) (main_arg2 : FVec F S8192x8192x2 .f32) (main_arg3 : FVec F S_ .f32) (main_arg4 : FVec F S128x32 .f32) (main_arg5 : FVec F S32 .f32) (main_arg6 : FVec F S8192x32 .f32) (main_arg7 : FVec F S32 .f32) (main_arg8 : FVec F S32 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S8192x8192x2 .f32 := Host.absf main_arg1
  let main_cst_0 : FVec F S_ .f32 := constant S_ .f32 0x7F800000#32
  let main_v5 : FVec F S8192x8192x2 .f32 := broadcastInDim S8192x8192x2 ![] bcast_S_S8192x8192x2 main_cst_0
  let main_v6 : IVec S8192x8192x2 1 := cmpf .olt main_v4 main_v5
  let main_c_1 : IVec S_ 1 := constantI S_ 1 1#1
  let main_v7 : IVec S_ 1 := (fun x v => Host.reduce IntOp.andi x v reducesTo_S8192x8192x2_S_d0_1_2 h_S_) main_v6 main_c_1
  let main_v8 : IVec S_ 1 := andi main_v3 main_v7
  let main_v9 : FVec F S8192x8192x2 .f32 := Host.absf main_arg2
  let main_cst_2 : FVec F S_ .f32 := constant S_ .f32 0x7F800000#32
  let main_v10 : FVec F S8192x8192x2 .f32 := broadcastInDim S8192x8192x2 ![] bcast_S_S8192x8192x2 main_cst_2
  let main_v11 : IVec S8192x8192x2 1 := cmpf .olt main_v9 main_v10
  let main_c_3 : IVec S_ 1 := constantI S_ 1 1#1
  let main_v12 : IVec S_ 1 := (fun x v => Host.reduce IntOp.andi x v reducesTo_S8192x8192x2_S_d0_1_2 h_S_) main_v11 main_c_3
  let main_v13 : IVec S_ 1 := andi main_v8 main_v12
  let main_v14 : FVec F S_ .f32 := Host.absf main_arg3
  let main_cst_4 : FVec F S_ .f32 := constant S_ .f32 0x7F800000#32
  let main_v15 : IVec S_ 1 := cmpf .olt main_v14 main_cst_4
  let main_c_5 : IVec S_ 1 := constantI S_ 1 1#1
  fn_part1 (F := F) main_arg4 main_arg5 main_arg6 main_arg7 main_arg8 main_v13 main_v15 main_c_5
-- ==== Kernel.lean ====
abbrev S8192x128 : Shape := ⟨2, ![8192, 128]⟩
abbrev S8192x8192x2 : Shape := ⟨3, ![8192, 8192, 2]⟩
abbrev S_ : Shape := ⟨0, ![]⟩
abbrev S128x32 : Shape := ⟨2, ![128, 32]⟩
abbrev S32 : Shape := ⟨1, ![32]⟩
abbrev S8192x32 : Shape := ⟨2, ![8192, 32]⟩
abbrev S1x32 : Shape := ⟨2, ![1, 32]⟩
abbrev S8192x64 : Shape := ⟨2, ![8192, 64]⟩
abbrev S8192x1x64 : Shape := ⟨3, ![8192, 1, 64]⟩
abbrev S8192x2x64 : Shape := ⟨3, ![8192, 2, 64]⟩
abbrev S16384x64 : Shape := ⟨2, ![16384, 64]⟩
abbrev S16384x128 : Shape := ⟨2, ![16384, 128]⟩
abbrev S8192x16384 : Shape := ⟨2, ![8192, 16384]⟩
abbrev S128x16384 : Shape := ⟨2, ![128, 16384]⟩
abbrev S128x128 : Shape := ⟨2, ![128, 128]⟩
abbrev S16384x32 : Shape := ⟨2, ![16384, 32]⟩
abbrev S1x16384x32 : Shape := ⟨3, ![1, 16384, 32]⟩
abbrev S2x16384x32 : Shape := ⟨3, ![2, 16384, 32]⟩
abbrev S1x1x32 : Shape := ⟨3, ![1, 1, 32]⟩

abbrev nBuf : Space → Nat
  | .hbm => 85
  | .vmem => 10
  | .smem => 0
  | _ => 0

abbrev bufTy : (tb : Table) → Fin (tcTables nBuf tb) → BufTy
  | .hbm, ⟨0, _⟩ => ⟨S8192x128, .f32⟩
  | .hbm, ⟨1, _⟩ => ⟨S8192x8192x2, .f32⟩
  | .hbm, ⟨2, _⟩ => ⟨S8192x8192x2, .f32⟩
  | .hbm, ⟨3, _⟩ => ⟨S_, .f32⟩
  | .hbm, ⟨4, _⟩ => ⟨S128x32, .f32⟩
  | .hbm, ⟨5, _⟩ => ⟨S32, .f32⟩
  | .hbm, ⟨6, _⟩ => ⟨S8192x32, .f32⟩
  | .hbm, ⟨7, _⟩ => ⟨S32, .f32⟩
  | .hbm, ⟨8, _⟩ => ⟨S32, .f32⟩
  | .hbm, ⟨9, _⟩ => ⟨S8192x32, .f32⟩
  | .hbm, ⟨10, _⟩ => ⟨S1x32, .f32⟩
  | .hbm, ⟨11, _⟩ => ⟨S8192x32, .f32⟩
  | .hbm, ⟨12, _⟩ => ⟨S8192x32, .f32⟩
  | .hbm, ⟨13, _⟩ => ⟨S8192x64, .f32⟩
  | .hbm, ⟨14, _⟩ => ⟨S_, .f32⟩
  | .hbm, ⟨15, _⟩ => ⟨S8192x64, .f32⟩
  | .hbm, ⟨16, _⟩ => ⟨S8192x1x64, .f32⟩
  | .hbm, ⟨17, _⟩ => ⟨S8192x1x64, .f32⟩
  | .hbm, ⟨18, _⟩ => ⟨S8192x2x64, .f32⟩
  | .hbm, ⟨19, _⟩ => ⟨S16384x64, .f32⟩
  | .hbm, ⟨20, _⟩ => ⟨S8192x1x64, .f32⟩
  | .hbm, ⟨21, _⟩ => ⟨S8192x1x64, .f32⟩
  | .hbm, ⟨22, _⟩ => ⟨S8192x2x64, .f32⟩
  | .hbm, ⟨23, _⟩ => ⟨S16384x64, .f32⟩
  | .hbm, ⟨24, _⟩ => ⟨S16384x128, .f32⟩
  | .hbm, ⟨25, _⟩ => ⟨S8192x16384, .f32⟩
  | .hbm, ⟨26, _⟩ => ⟨S8192x16384, .f32⟩
  | .hbm, ⟨27, _⟩ => ⟨S8192x128, .f32⟩
  | .hbm, ⟨28, _⟩ => ⟨S8192x128, .f32⟩
  | .hbm, ⟨29, _⟩ => ⟨S8192x32, .f32⟩
  | .hbm, ⟨30, _⟩ => ⟨S8192x32, .f32⟩
  | .hbm, ⟨31, _⟩ => ⟨S8192x32, .f32⟩
  | .hbm, ⟨32, _⟩ => ⟨S8192x32, .f32⟩
  | .hbm, ⟨33, _⟩ => ⟨S8192x32, .f32⟩
  | .hbm, ⟨34, _⟩ => ⟨S8192x32, .f32⟩
  | .hbm, ⟨35, _⟩ => ⟨S8192x32, .f32⟩
  | .hbm, ⟨36, _⟩ => ⟨S8192x32, .f32⟩
  | .hbm, ⟨37, _⟩ => ⟨S1x32, .f32⟩
  | .hbm, ⟨38, _⟩ => ⟨S8192x32, .f32⟩
  | .hbm, ⟨39, _⟩ => ⟨S8192x32, .f32⟩
  | .hbm, ⟨40, _⟩ => ⟨S8192x32, .f32⟩
  | .hbm, ⟨41, _⟩ => ⟨S8192x32, .f32⟩
  | .hbm, ⟨42, _⟩ => ⟨S_, .f32⟩
  | .hbm, ⟨43, _⟩ => ⟨S_, .f32⟩
  | .hbm, ⟨44, _⟩ => ⟨S8192x32, .f32⟩
  | .hbm, ⟨45, _⟩ => ⟨S8192x32, .f32⟩
  | .hbm, ⟨46, _⟩ => ⟨S8192x32, .f32⟩
  | .hbm, ⟨47, _⟩ => ⟨S1x32, .f32⟩
  | .hbm, ⟨48, _⟩ => ⟨S8192x32, .f32⟩
  | .hbm, ⟨49, _⟩ => ⟨S8192x32, .f32⟩
  | .hbm, ⟨50, _⟩ => ⟨S8192x32, .f32⟩
  | .hbm, ⟨51, _⟩ => ⟨S8192x32, .f32⟩
  | .hbm, ⟨52, _⟩ => ⟨S_, .f32⟩
  | .hbm, ⟨53, _⟩ => ⟨S_, .f32⟩
  | .hbm, ⟨54, _⟩ => ⟨S8192x32, .f32⟩
  | .hbm, ⟨55, _⟩ => ⟨S8192x32, .f32⟩
  | .hbm, ⟨56, _⟩ => ⟨S8192x32, .f32⟩
  | .hbm, ⟨57, _⟩ => ⟨S1x32, .f32⟩
  | .hbm, ⟨58, _⟩ => ⟨S8192x32, .f32⟩
  | .hbm, ⟨59, _⟩ => ⟨S8192x32, .f32⟩
  | .hbm, ⟨60, _⟩ => ⟨S8192x32, .f32⟩
  | .hbm, ⟨61, _⟩ => ⟨S8192x32, .f32⟩
  | .hbm, ⟨62, _⟩ => ⟨S_, .f32⟩
  | .hbm, ⟨63, _⟩ => ⟨S_, .f32⟩
  | .hbm, ⟨64, _⟩ => ⟨S8192x32, .f32⟩
  | .hbm, ⟨65, _⟩ => ⟨S8192x32, .f32⟩
  | .hbm, ⟨66, _⟩ => ⟨S8192x32, .f32⟩
  | .hbm, ⟨67, _⟩ => ⟨S1x32, .f32⟩
  | .hbm, ⟨68, _⟩ => ⟨S8192x32, .f32⟩
  | .hbm, ⟨69, _⟩ => ⟨S8192x32, .f32⟩
  | .hbm, ⟨70, _⟩ => ⟨S8192x32, .f32⟩
  | .hbm, ⟨71, _⟩ => ⟨S8192x32, .f32⟩
  | .hbm, ⟨72, _⟩ => ⟨S_, .f32⟩
  | .hbm, ⟨73, _⟩ => ⟨S_, .f32⟩
  | .hbm, ⟨74, _⟩ => ⟨S8192x32, .f32⟩
  | .hbm, ⟨75, _⟩ => ⟨S8192x32, .f32⟩
  | .hbm, ⟨76, _⟩ => ⟨S8192x32, .f32⟩
  | .hbm, ⟨77, _⟩ => ⟨S16384x32, .f32⟩
  | .hbm, ⟨78, _⟩ => ⟨S16384x32, .f32⟩
  | .hbm, ⟨79, _⟩ => ⟨S1x16384x32, .f32⟩
  | .hbm, ⟨80, _⟩ => ⟨S1x16384x32, .f32⟩
  | .hbm, ⟨81, _⟩ => ⟨S2x16384x32, .f32⟩
  | .hbm, ⟨82, _⟩ => ⟨S1x1x32, .f32⟩
  | .hbm, ⟨83, _⟩ => ⟨S2x16384x32, .f32⟩
  | .hbm, ⟨84, _⟩ => ⟨S2x16384x32, .f32⟩
  | .local _ .vmem, ⟨0, _⟩ => ⟨S128x16384, .f32⟩
  | .local _ .vmem, ⟨1, _⟩ => ⟨S128x16384, .f32⟩
  | .local _ .vmem, ⟨2, _⟩ => ⟨S16384x128, .f32⟩
  | .local _ .vmem, ⟨3, _⟩ => ⟨S128x128, .f32⟩
  | .local _ .vmem, ⟨4, _⟩ => ⟨S128x128, .f32⟩
  | .local _ .vmem, ⟨5, _⟩ => ⟨S128x16384, .f32⟩
  | .local _ .vmem, ⟨6, _⟩ => ⟨S128x16384, .f32⟩
  | .local _ .vmem, ⟨7, _⟩ => ⟨S16384x128, .f32⟩
  | .local _ .vmem, ⟨8, _⟩ => ⟨S128x128, .f32⟩
  | .local _ .vmem, ⟨9, _⟩ => ⟨S128x128, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_0 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst_1 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_cst_2 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_cst_3 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16384x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x16384 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16384x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S128x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  bcast_S32_S1x32_1 : S32.BroadcastsInDim S1x32 (![1] : Fin 1 → Fin S1x32.rank)
  bcast_S1x32_S8192x32_0_1 : S1x32.BroadcastsInDim S8192x32 (![0, 1] : Fin 2 → Fin S8192x32.rank)
  concatenates_S8192x32_S8192x32_S8192x64_d1 : Shape.Concatenates [S8192x32, S8192x32] S8192x64 1
  bcast_S_S8192x64 : S_.BroadcastsInDim S8192x64 (![] : Fin 0 → Fin S8192x64.rank)
  bcast_S8192x64_S8192x1x64_0_2 : S8192x64.BroadcastsInDim S8192x1x64 (![0, 2] : Fin 2 → Fin S8192x1x64.rank)
  concatenates_S8192x1x64_S8192x1x64_S8192x2x64_d1 : Shape.Concatenates [S8192x1x64, S8192x1x64] S8192x2x64 1
  shapeCasts_S8192x2x64_S16384x64 : S8192x2x64.ShapeCasts S16384x64
  concatenates_S16384x64_S16384x64_S16384x128_d1 : Shape.Concatenates [S16384x64, S16384x64] S16384x128 1
  shapeCasts_S8192x8192x2_S8192x16384 : S8192x8192x2.ShapeCasts S8192x16384
  inb_S128x16384_S128x16384_0_0 : ∀ a, (![0, 0] : Fin 2 → Nat) a + S128x16384.size a ≤ S128x16384.size a
  h_S128x16384 : 0 < S128x16384.numel
  shapeCasts_S128x16384_S128x16384 : S128x16384.ShapeCasts S128x16384
  bitsLt_bf16_f32 : FTy.bits .bf16 < FTy.bits .f32
  inb_S16384x128_S16384x128_0_0 : ∀ a, (![0, 0] : Fin 2 → Nat) a + S16384x128.size a ≤ S16384x128.size a
  h_S16384x128 : 0 < S16384x128.numel
  shapeCasts_S16384x128_S16384x128 : S16384x128.ShapeCasts S16384x128
  inb_S128x128_S128x128_0_0 : ∀ a, (![0, 0] : Fin 2 → Nat) a + S128x128.size a ≤ S128x128.size a
  h_S128x128 : 0 < S128x128.numel
  slices_S8192x128_S8192x32_0_0 : S8192x128.Slices ![0, 0] S8192x32
  slices_S8192x128_S8192x32_0_32 : S8192x128.Slices ![0, 32] S8192x32
  slices_S8192x128_S8192x32_0_64 : S8192x128.Slices ![0, 64] S8192x32
  slices_S8192x128_S8192x32_0_96 : S8192x128.Slices ![0, 96] S8192x32
  bcast_S_S8192x32 : S_.BroadcastsInDim S8192x32 (![] : Fin 0 → Fin S8192x32.rank)
  concatenates_S8192x32_S8192x32_S16384x32_d0 : Shape.Concatenates [S8192x32, S8192x32] S16384x32 0
  bcast_S16384x32_S1x16384x32_1_2 : S16384x32.BroadcastsInDim S1x16384x32 (![1, 2] : Fin 2 → Fin S1x16384x32.rank)
  concatenates_S1x16384x32_S1x16384x32_S2x16384x32_d0 : Shape.Concatenates [S1x16384x32, S1x16384x32] S2x16384x32 0
  bcast_S32_S1x1x32_2 : S32.BroadcastsInDim S1x1x32 (![2] : Fin 1 → Fin S1x1x32.rank)
  bcast_S1x1x32_S2x16384x32_0_1_2 : S1x1x32.BroadcastsInDim S2x16384x32 (![0, 1, 2] : Fin 3 → Fin S2x16384x32.rank)
  dot_S8192x128_S128x32_S8192x32_1_0_0_1_n_n_wf : DotDims.WF S8192x128 S128x32 S8192x32 [1] [0] [0] [1] [] []
  dot_S128x16384_S16384x128_S128x128_1_0_0_1_n_n_wf : DotDims.WF S128x16384 S16384x128 S128x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x16384.size a ≤ S8192x16384.size a
  hwx0_0 : ∀ i : grid0.Coords, EltTy.bits .f32 = 32 ∨ (Rect.block (s := S8192x16384) S128x16384.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16384x128.size a ≤ S16384x128.size a
  hwx0_1 : ∀ i : grid0.Coords, EltTy.bits .f32 = 32 ∨ (Rect.block (s := S16384x128) S16384x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S8192x128.size a
  hwx0_2 : ∀ i : grid0.Coords, EltTy.bits .f32 = 32 ∨ (Rect.block (s := S8192x128) S128x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x16384.size a ≤ S8192x16384.size a
  hwx1_0 : ∀ i : grid1.Coords, EltTy.bits .f32 = 32 ∨ (Rect.block (s := S8192x16384) S128x16384.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16384x128.size a ≤ S16384x128.size a
  hwx1_1 : ∀ i : grid1.Coords, EltTy.bits .f32 = 32 ∨ (Rect.block (s := S16384x128) S16384x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S8192x128.size a
  hwx1_2 : ∀ i : grid1.Coords, EltTy.bits .f32 = 32 ∨ (Rect.block (s := S8192x128) S128x128.size (cc1_transform_2 i) (hinb1_2 i)).WholeWords (EltTy.packing .f32)

variable [Facts₀]

def dot_S8192x128_S128x32_S8192x32_1_0_0_1_n_n : DotDims S8192x128 S128x32 S8192x32 where
  lhsContracting := [1]
  rhsContracting := [0]
  lhsNonContracting := [0]
  rhsNonContracting := [1]
  lhsBatch := []
  rhsBatch := []
  wf := dot_S8192x128_S128x32_S8192x32_1_0_0_1_n_n_wf
def dot_S128x16384_S16384x128_S128x128_1_0_0_1_n_n : DotDims S128x16384 S16384x128 S128x128 where
  lhsContracting := [1]
  rhsContracting := [0]
  lhsNonContracting := [0]
  rhsNonContracting := [1]
  lhsBatch := []
  rhsBatch := []
  wf := dot_S128x16384_S16384x128_S128x128_1_0_0_1_n_n_wf

abbrev win0_0 : Pipeline.Window sig grid0 :=
  Pipeline.Window.ofSpec (Memref.whole main_v15) S128x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S16384x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v17) S128x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v16) S128x16384.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S16384x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v18) S128x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S8192x128 : Shape := ⟨2, ![8192, 128]⟩
abbrev S8192x8192x2 : Shape := ⟨3, ![8192, 8192, 2]⟩
abbrev S_ : Shape := ⟨0, ![]⟩
abbrev S128x32 : Shape := ⟨2, ![128, 32]⟩
abbrev S32 : Shape := ⟨1, ![32]⟩
abbrev S8192x32 : Shape := ⟨2, ![8192, 32]⟩
abbrev S1x32 : Shape := ⟨2, ![1, 32]⟩
abbrev S2x8192x8192 : Shape := ⟨3, ![2, 8192, 8192]⟩
abbrev S2x8192x32 : Shape := ⟨3, ![2, 8192, 32]⟩
abbrev S1x1x32 : Shape := ⟨3, ![1, 1, 32]⟩
abbrev S2x16384x32 : Shape := ⟨3, ![2, 16384, 32]⟩

abbrev nBuf : Space → Nat
  | .hbm => 43
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x8192x2, .f32⟩
  | .hbm, ⟨2, _⟩ => ⟨S8192x8192x2, .f32⟩
  | .hbm, ⟨3, _⟩ => ⟨S_, .f32⟩
  | .hbm, ⟨4, _⟩ => ⟨S128x32, .f32⟩
  | .hbm, ⟨5, _⟩ => ⟨S32, .f32⟩
  | .hbm, ⟨6, _⟩ => ⟨S8192x32, .f32⟩
  | .hbm, ⟨7, _⟩ => ⟨S32, .f32⟩
  | .hbm, ⟨8, _⟩ => ⟨S32, .f32⟩
  | .hbm, ⟨9, _⟩ => ⟨S8192x32, .f32⟩
  | .hbm, ⟨10, _⟩ => ⟨S1x32, .f32⟩
  | .hbm, ⟨11, _⟩ => ⟨S8192x32, .f32⟩
  | .hbm, ⟨12, _⟩ => ⟨S8192x32, .f32⟩
  | .hbm, ⟨13, _⟩ => ⟨S2x8192x8192, .f32⟩
  | .hbm, ⟨14, _⟩ => ⟨S2x8192x8192, .f32⟩
  | .hbm, ⟨15, _⟩ => ⟨S2x8192x32, .f32⟩
  | .hbm, ⟨16, _⟩ => ⟨S1x1x32, .f32⟩
  | .hbm, ⟨17, _⟩ => ⟨S2x8192x32, .f32⟩
  | .hbm, ⟨18, _⟩ => ⟨S2x8192x32, .f32⟩
  | .hbm, ⟨19, _⟩ => ⟨S2x8192x32, .f32⟩
  | .hbm, ⟨20, _⟩ => ⟨S1x1x32, .f32⟩
  | .hbm, ⟨21, _⟩ => ⟨S2x8192x32, .f32⟩
  | .hbm, ⟨22, _⟩ => ⟨S2x8192x32, .f32⟩
  | .hbm, ⟨23, _⟩ => ⟨S2x8192x32, .f32⟩
  | .hbm, ⟨24, _⟩ => ⟨S2x8192x32, .f32⟩
  | .hbm, ⟨25, _⟩ => ⟨S2x8192x32, .f32⟩
  | .hbm, ⟨26, _⟩ => ⟨S2x8192x32, .f32⟩
  | .hbm, ⟨27, _⟩ => ⟨S_, .f32⟩
  | .hbm, ⟨28, _⟩ => ⟨S_, .f32⟩
  | .hbm, ⟨29, _⟩ => ⟨S2x8192x32, .f32⟩
  | .hbm, ⟨30, _⟩ => ⟨S2x8192x32, .f32⟩
  | .hbm, ⟨31, _⟩ => ⟨S2x8192x32, .f32⟩
  | .hbm, ⟨32, _⟩ => ⟨S2x8192x32, .f32⟩
  | .hbm, ⟨33, _⟩ => ⟨S2x8192x32, .f32⟩
  | .hbm, ⟨34, _⟩ => ⟨S_, .f32⟩
  | .hbm, ⟨35, _⟩ => ⟨S_, .f32⟩
  | .hbm, ⟨36, _⟩ => ⟨S2x8192x32, .f32⟩
  | .hbm, ⟨37, _⟩ => ⟨S2x8192x32, .f32⟩
  | .hbm, ⟨38, _⟩ => ⟨S2x8192x32, .f32⟩
  | .hbm, ⟨39, _⟩ => ⟨S2x16384x32, .f32⟩
  | .hbm, ⟨40, _⟩ => ⟨S1x1x32, .f32⟩
  | .hbm, ⟨41, _⟩ => ⟨S2x16384x32, .f32⟩
  | .hbm, ⟨42, _⟩ => ⟨S2x16384x32, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_0 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩

abbrev nD : Nat := 1
abbrev τ : Topo := Topo.v7x

variable {F : FTy → Type} [FloatOps F]

class Facts₀ : Prop where
  bcast_S32_S1x32_1 : S32.BroadcastsInDim S1x32 (![1] : Fin 1 → Fin S1x32.rank)
  bcast_S1x32_S8192x32_0_1 : S1x32.BroadcastsInDim S8192x32 (![0, 1] : Fin 2 → Fin S8192x32.rank)
  transposes_S8192x8192x2_S2x8192x8192_2_0_1 : S8192x8192x2.Transposes [2, 0, 1] S2x8192x8192
  bcast_S32_S1x1x32_2 : S32.BroadcastsInDim S1x1x32 (![2] : Fin 1 → Fin S1x1x32.rank)
  bcast_S1x1x32_S2x8192x32_0_1_2 : S1x1x32.BroadcastsInDim S2x8192x32 (![0, 1, 2] : Fin 3 → Fin S2x8192x32.rank)
  bcast_S_S2x8192x32 : S_.BroadcastsInDim S2x8192x32 (![] : Fin 0 → Fin S2x8192x32.rank)
  concatenates_S2x8192x32_S2x8192x32_S2x16384x32_d1 : Shape.Concatenates [S2x8192x32, S2x8192x32] S2x16384x32 1
  bcast_S1x1x32_S2x16384x32_0_1_2 : S1x1x32.BroadcastsInDim S2x16384x32 (![0, 1, 2] : Fin 3 → Fin S2x16384x32.rank)
  dot_S8192x128_S128x32_S8192x32_1_0_0_1_n_n_wf : DotDims.WF S8192x128 S128x32 S8192x32 [1] [0] [0] [1] [] []
  dot_S2x8192x8192_S8192x32_S2x8192x32_2_0_01_1_n_n_wf : DotDims.WF S2x8192x8192 S8192x32 S2x8192x32 [2] [0] [0, 1] [1] [] []

variable [Facts₀]

def dot_S8192x128_S128x32_S8192x32_1_0_0_1_n_n : DotDims S8192x128 S128x32 S8192x32 where
  lhsContracting := [1]
  rhsContracting := [0]
  lhsNonContracting := [0]
  rhsNonContracting := [1]
  lhsBatch := []
  rhsBatch := []
  wf := dot_S8192x128_S128x32_S8192x32_1_0_0_1_n_n_wf
def dot_S2x8192x8192_S8192x32_S2x8192x32_2_0_01_1_n_n : DotDims S2x8192x8192 S8192x32 S2x8192x32 where
  lhsContracting := [2]
  rhsContracting := [0]
  lhsNonContracting := [0, 1]
  rhsNonContracting := [1]
  lhsBatch := []
  rhsBatch := []
  wf := dot_S2x8192x8192_S8192x32_S2x8192x32_2_0_01_1_n_n_wf

class Facts : Prop extends Facts₀ where

variable [Facts]
-- ==== Proof.LibSumBlocks.lean ====
/- A sum over a flat row-major index is the nested sum over its coordinates. -/
import Mathlib.Data.Fintype.BigOperators
import Mathlib.Logic.Equiv.Fin.Basic

/-- The row-major position of the pair `(a, b)` in an `m × n` grid lies below `m * n`. -/
theorem Fin.rowMajor_lt {m n : ℕ} (a : Fin m) (b : Fin n) : a.val * n + b.val < m * n :=
  calc a.val * n + b.val < a.val * n + n := Nat.add_lt_add_left b.isLt _
    _ = (a.val + 1) * n := (Nat.succ_mul _ _).symm
    _ ≤ m * n := Nat.mul_le_mul_right n a.isLt

/-- Two axes: a sum over the flat index of an `m × n` grid is the sum over the rows of the sums along each row.
    The pairs `(a, b)` are in bijection with the flat positions `a * n + b`, and a sum over pairs is an iterated sum. -/
theorem Fin.sum_rowMajor2 {M : Type*} [AddCommMonoid M] (m n : ℕ) (f : Fin (m * n) → M) :
    ∑ e, f e = ∑ a : Fin m, ∑ b : Fin n, f ⟨a.val * n + b.val, Fin.rowMajor_lt a b⟩ := by
  rw [← Fintype.sum_prod_type' (f := fun (a : Fin m) (b : Fin n) => f ⟨a.val * n + b.val, Fin.rowMajor_lt a b⟩)]
  exact (Fintype.sum_equiv finProdFinEquiv (fun p : Fin m × Fin n => f ⟨p.1.val * n + p.2.val, Fin.rowMajor_lt p.1 p.2⟩) f
    (fun p => congrArg f (Fin.ext (by simp [Nat.mul_comm, Nat.add_comm])))).symm

/-- Four axes: a sum over the flat row-major index of an `n0 × n1 × n2 × n3` grid is the nested sum over its four
    coordinates, the last axis innermost — the two-axis statement applied to the last axis, then to the third, then to
    the second. -/
theorem Fin.sum_rowMajor4 {M : Type*} [AddCommMonoid M] (n0 n1 n2 n3 : ℕ) (f : Fin (n0 * n1 * n2 * n3) → M) :
    ∑ e, f e = ∑ a : Fin n0, ∑ b : Fin n1, ∑ c : Fin n2, ∑ d : Fin n3,
      f ⟨((a.val * n1 + b.val) * n2 + c.val) * n3 + d.val,
        Fin.rowMajor_lt (⟨(a.val * n1 + b.val) * n2 + c.val,
          Fin.rowMajor_lt (⟨a.val * n1 + b.val, Fin.rowMajor_lt a b⟩ : Fin (n0 * n1)) c⟩ : Fin (n0 * n1 * n2)) d⟩ :=
  (Fin.sum_rowMajor2 (n0 * n1 * n2) n3 f).trans <|
  (Fin.sum_rowMajor2 (n0 * n1) n2 (fun x => ∑ d : Fin n3, f ⟨x.val * n3 + d.val, Fin.rowMajor_lt x d⟩)).trans <|
  Fin.sum_rowMajor2 n0 n1 (fun y => ∑ c : Fin n2, ∑ d : Fin n3,
    f ⟨(y.val * n2 + c.val) * n3 + d.val, Fin.rowMajor_lt (⟨y.val * n2 + c.val, Fin.rowMajor_lt y c⟩ : Fin (n0 * n1 * n2)) d⟩)

/-- The instance used for the edge arrays: 3200000 = 2 · 2 · 6250 · 128 entries, read as two halves of two blocks of
    6250 rows of 128 lanes. -/
theorem sum_flat_2x2x6250x128 {M : Type*} [AddCommMonoid M] (f : Fin 3200000 → M) :
    ∑ e, f e = ∑ a : Fin 2, ∑ b : Fin 2, ∑ r : Fin 6250, ∑ l : Fin 128,
      f ⟨((a.val * 2 + b.val) * 6250 + r.val) * 128 + l.val, by omega⟩ :=
  Fin.sum_rowMajor4 2 2 6250 128 f
-- ==== Proof.Spec.lean ====
/-
  The graph layer's result as ONE function of the argument arrays, index by index, on the extended reals.

  Node features go through a dense layer, xdw a f = Σ_k X a k · W1 k f + b1 f. Each edge tensor E [n, a, e] (target n,
  source a, channel e) is contracted over its source axis against two node tables, the weights W2 and xdw:
      agg E B e n f = Σ_a E n a e · B a f.
  A sheet mixes the two with the scalar α,  α · (agg E W2 + b2) + (1 − α) · agg E xdw,  the two edge tensors' sheets are
  laid one after the other along the row axis (row 8192 s + n is row n of tensor s), and a bias is added per filter.

  The kernel computes the contractions as two plain products  R · BW  of the edge tensor viewed [8192, 16384]
  (column 2 a + b is source a, channel b) with a [16384, 128] table whose row 2 a + b holds, in the 64 columns of
  channel e = b, the two node tables' row a, and zero in the 64 columns of the other channel. The law that joins the
  two sides is only this: a sum over the flat index 2 a + b is the sum over a of the sum over b, and the terms of the
  other channel are products with zero.
-/
import Idealize.ShloMosaic.Lib.ValueIdx
import Idealize.ShloMosaic.PureOps.Ideal
import proofs.«112145_j83030307766284_1_alg».proof.Proof.LibSumBlocks

noncomputable section

open scoped BigOperators

namespace Cert.Spec

open Idealize.ShloMosaic Idealize.ShloMosaic.ValueIdx

/-- Arrays of extended reals over literal shapes. -/
abbrev A0 : Type := (⟨0, ![]⟩ : Shape).Idx → EReal
abbrev A1 (a : Nat) : Type := (⟨1, ![a]⟩ : Shape).Idx → EReal
abbrev A2 (a b : Nat) : Type := (⟨2, ![a, b]⟩ : Shape).Idx → EReal
abbrev A3 (a b c : Nat) : Type := (⟨3, ![a, b, c]⟩ : Shape).Idx → EReal

/-- Column 64 e + 32 h + f of the 128 product columns: channel e, node table h (0 the weights, 1 the dense layer's
    output), filter f. -/
def col (e h : Fin 2) (f : Fin 32) : Fin 128 := ⟨64 * e.val + 32 * h.val + f.val, by omega⟩

/-- Flat position 2 a + b of source a, channel b. -/
def flat (a : Fin 8192) (b : Fin 2) : Fin 16384 := ⟨a.val * 2 + b.val, by omega⟩

/-- Row 8192 s + n: row n of edge tensor s. -/
def row (s : Fin 2) (n : Fin 8192) : Fin 16384 := ⟨s.val * 8192 + n.val, by omega⟩

theorem exists_row (r : Fin 16384) : ∃ (s : Fin 2) (n : Fin 8192), r = row s n :=
  ⟨⟨r.val / 8192, by omega⟩, ⟨r.val % 8192, by omega⟩, Fin.ext (by simp only [row]; omega)⟩

theorem exists_col (q : Fin 128) : ∃ (e h : Fin 2) (f : Fin 32), q = col e h f :=
  ⟨⟨q.val / 64, by omega⟩, ⟨q.val % 64 / 32, by omega⟩, ⟨q.val % 32, by omega⟩, Fin.ext (by simp only [col]; omega)⟩

/-- The dense layer on node features. -/
def xdw (X : A2 8192 128) (W1 : A2 128 32) (b1 : A1 32) (a : Fin 8192) (f : Fin 32) : EReal :=
  (∑ k : Fin 128, X (ix2 a k) * W1 (ix2 k f)) + b1 (ix1 f)

/-- The two node tables: 0 the weights, 1 the dense layer's output. -/
def tbl (W2 : A2 8192 32) (XDW : Fin 8192 → Fin 32 → EReal) (h : Fin 2) (a : Fin 8192) (f : Fin 32) : EReal :=
  if h = 0 then W2 (ix2 a f) else XDW a f

/-- Channel e of an edge tensor contracted over its source axis against a node table. -/
def agg (E : A3 8192 8192 2) (B : Fin 8192 → Fin 32 → EReal) (e : Fin 2) (n : Fin 8192) (f : Fin 32) : EReal :=
  ∑ a : Fin 8192, E (ix3 n a e) * B a f

/-- One edge tensor's sheet. -/
def sheet (α one : EReal) (E : A3 8192 8192 2) (W2 : A2 8192 32) (XDW : Fin 8192 → Fin 32 → EReal) (b2 : A1 32)
    (e : Fin 2) (n : Fin 8192) (f : Fin 32) : EReal :=
  α * (agg E (tbl W2 XDW 0) e n f + b2 (ix1 f)) + (one - α) * agg E (tbl W2 XDW 1) e n f

/-- The result at channel e, edge tensor s, row n, filter f. -/
def Y (α one : EReal) (E0 E1 : A3 8192 8192 2) (W2 : A2 8192 32) (XDW : Fin 8192 → Fin 32 → EReal) (b2 bias : A1 32)
    (e s : Fin 2) (n : Fin 8192) (f : Fin 32) : EReal :=
  sheet α one (if s = 0 then E0 else E1) W2 XDW b2 e n f + bias (ix1 f)

/-- The result at coordinates (e, r, f), the row r split into its tensor and its row there. -/
def Gat (α one : EReal) (E0 E1 : A3 8192 8192 2) (W2 : A2 8192 32) (XDW : Fin 8192 → Fin 32 → EReal) (b2 bias : A1 32)
    (e : Fin 2) (r : Fin 16384) (f : Fin 32) : EReal :=
  Y α one E0 E1 W2 XDW b2 bias e ⟨r.val / 8192, by omega⟩ ⟨r.val % 8192, by omega⟩ f

/-- The result array [2, 16384, 32]. -/
def G (α one : EReal) (E0 E1 : A3 8192 8192 2) (W2 : A2 8192 32) (XDW : Fin 8192 → Fin 32 → EReal) (b2 bias : A1 32) :
    A3 2 16384 32 :=
  fun j => Gat α one E0 E1 W2 XDW b2 bias (j 0) (j 1) (j 2)

theorem G_at (α one : EReal) (E0 E1 : A3 8192 8192 2) (W2 : A2 8192 32) (XDW : Fin 8192 → Fin 32 → EReal) (b2 bias : A1 32)
    (e s : Fin 2) (n : Fin 8192) (f : Fin 32) :
    G α one E0 E1 W2 XDW b2 bias (ix3 e (row s n) f) = Y α one E0 E1 W2 XDW b2 bias e s n f := by
  show Gat α one E0 E1 W2 XDW b2 bias e (row s n) f = _
  unfold Gat
  have hs : (⟨(row s n).val / 8192, by omega⟩ : Fin 2) = s := Fin.ext (by simp only [row]; omega)
  have hn : (⟨(row s n).val % 8192, by omega⟩ : Fin 8192) = n := Fin.ext (by simp only [row]; omega)
  rw [hs, hn]

/-- An array equals the result array as soon as it does at every (e, 8192 s + n, f). -/
theorem eq_G_of_at (α one : EReal) (E0 E1 : A3 8192 8192 2) (W2 : A2 8192 32) (XDW : Fin 8192 → Fin 32 → EReal) (b2 bias : A1 32)
    (Z : A3 2 16384 32)
    (h : ∀ (e s : Fin 2) (n : Fin 8192) (f : Fin 32), Z (ix3 e (row s n) f) = Y α one E0 E1 W2 XDW b2 bias e s n f) :
    Z = G α one E0 E1 W2 XDW b2 bias := by
  funext j
  obtain ⟨e, r, f, rfl⟩ : ∃ (e : Fin 2) (r : Fin 16384) (f : Fin 32), j = ix3 e r f := ⟨j 0, j 1, j 2, eq_ix3 j⟩
  obtain ⟨s, n, rfl⟩ := exists_row r
  rw [G_at]; exact h e s n f

/-- The plain product of an [8192, 16384] array with a [16384, 128] array. -/
def prod (A : A2 8192 16384) (B : A2 16384 128) : A2 8192 128 :=
  fun j => ∑ k : Fin 16384, A (ix2 (j 0) k) * B (ix2 k (j 1))

/-- THE LAW. If column 2 a + b of R is entry (a, b) of an edge tensor's row, and row 2 a + b of BW holds a node table's
    row a in the columns of channel b and zero in the other channel's, the product at column (e, h, f) is channel e of
    the edge tensor contracted against table h: the flat sum is the sum over a of the sum over b, and the term of the
    other channel is a product with zero. -/
theorem prod_col (R : A2 8192 16384) (BW : A2 16384 128) (E : A3 8192 8192 2) (T : Fin 2 → Fin 8192 → Fin 32 → EReal)
    (hR : ∀ (n a : Fin 8192) (b : Fin 2), R (ix2 n (flat a b)) = E (ix3 n a b))
    (hB : ∀ (a : Fin 8192) (b e h : Fin 2) (f : Fin 32), BW (ix2 (flat a b) (col e h f)) = if b = e then T h a f else 0)
    (n : Fin 8192) (e h : Fin 2) (f : Fin 32) :
    prod R BW (ix2 n (col e h f)) = agg E (T h) e n f := by
  show ∑ k : Fin 16384, R (ix2 n k) * BW (ix2 k (col e h f)) = ∑ a : Fin 8192, E (ix3 n a e) * T h a f
  rw [Fin.sum_rowMajor2 8192 2 (fun k : Fin (8192 * 2) => R (ix2 n k) * BW (ix2 k (col e h f)))]
  refine Finset.sum_congr rfl fun a _ => ?_
  rw [Fin.sum_univ_two]
  have h0 := hB a 0 e h f
  have h1 := hB a 1 e h f
  have r0 := hR n a 0
  have r1 := hR n a 1
  have f0 : (⟨a.val * 2 + (0 : Fin 2).val, Fin.rowMajor_lt a (0 : Fin 2)⟩ : Fin (8192 * 2)) = flat a 0 := rfl
  have f1 : (⟨a.val * 2 + (1 : Fin 2).val, Fin.rowMajor_lt a (1 : Fin 2)⟩ : Fin (8192 * 2)) = flat a 1 := rfl
  rw [f0, f1, h0, h1, r0, r1]
  match e with
  | ⟨0, _⟩ => simp
  | ⟨1, _⟩ => simp

end Cert.Spec

end
-- ==== Proof.LibPlainDot.lean ====
/-
  A product of an [M, K] array with a [K, N] array that contracts the left operand's axis 1 against the right
  operand's axis 0 (no batch axis), read at the entry (p, q): the sum over k of left (p, k) times right (k, q).
  Stated once for every dimension record of that kind, so that the kernel's matrix unit into a zero accumulator
  and the host's dot product are both read by instantiating it. With it, the transpose of an [a, b] array read at
  (p, q): the array at (q, p).
-/
import Idealize.ShloMosaic.Lib.ValueIdx
import Idealize.ShloMosaic.Lib.Pipeline.Value
import Idealize.ShloMosaic.PureOps.Ideal.Laws

noncomputable section

open scoped BigOperators

namespace Idealize.ShloMosaic.PlainDot

open Idealize.ShloMosaic Idealize.ShloMosaic.ValueIdx

variable {M K N : Nat} (D : DotDims ⟨2, ![M, K]⟩ ⟨2, ![K, N]⟩ ⟨2, ![M, N]⟩)

/-- The dimension numbers of a plain matrix product: rows of the left operand against columns of the right one. -/
structure IsPlain : Prop where
  lc : D.lhsContracting = [1]
  rc : D.rhsContracting = [0]
  ln : D.lhsNonContracting = [0]
  rn : D.rhsNonContracting = [1]
  lb : D.lhsBatch = []
  rb : D.rhsBatch = []

variable {D}

/-- The contraction runs over one axis … -/
theorem contr_rank (h : IsPlain D) : D.contr.rank = 1 := by
  rw [D.rank_contr, h.lc]; rfl

/-- … whose extent is the shared dimension K. -/
theorem contr_size (h : IsPlain D) : D.contr.size ⟨0, by have := contr_rank h; omega⟩ = K := by
  have h0 : 0 < D.lhsContracting.length := by rw [h.lc]; exact Nat.one_pos
  rw [D.size_contr 0 h0]
  simp [h.lc]

/-- The left operand's row is the result's row. -/
theorem lhs_row (h : IsPlain D) (j : (⟨2, ![M, N]⟩ : Shape).Idx) (q : D.contr.Idx) :
    (D.lhsIdx j q 0).val = (j 0).val := by
  unfold DotDims.lhsIdx
  rw [dif_neg (by rw [h.lb]; exact List.not_mem_nil), dif_pos (by rw [h.ln]; exact List.mem_singleton.mpr rfl)]
  simp only [Fin.val_cast]
  have key : ∀ (a b : Nat) (ha : a < (⟨2, ![M, N]⟩ : Shape).rank) (hb : b < (⟨2, ![M, N]⟩ : Shape).rank), a = b →
      (j ⟨a, ha⟩).val = (j ⟨b, hb⟩).val := fun a b ha hb e => by subst e; rfl
  exact key _ _ _ _ (by simp [h.lb, h.ln])

/-- The left operand's column is the contraction coordinate. -/
theorem lhs_col (h : IsPlain D) (j : (⟨2, ![M, N]⟩ : Shape).Idx) (q : D.contr.Idx) :
    (D.lhsIdx j q 1).val = (q ⟨0, by have := contr_rank h; omega⟩).val :=
  D.lhsIdx_val_of_single h.lc j q

/-- The right operand's row is the contraction coordinate. -/
theorem rhs_row (h : IsPlain D) (j : (⟨2, ![M, N]⟩ : Shape).Idx) (q : D.contr.Idx) :
    (D.rhsIdx j q 0).val = (q ⟨0, by have := contr_rank h; omega⟩).val :=
  D.rhsIdx_val_of_single h.rc j q

/-- The right operand's column is the result's column. -/
theorem rhs_col (h : IsPlain D) (j : (⟨2, ![M, N]⟩ : Shape).Idx) (q : D.contr.Idx) :
    (D.rhsIdx j q 1).val = (j 1).val := by
  unfold DotDims.rhsIdx
  rw [dif_neg (by rw [h.rb]; exact List.not_mem_nil), dif_pos (by rw [h.rn]; exact List.mem_singleton.mpr rfl)]
  simp only [Fin.val_cast]
  have key : ∀ (a b : Nat) (ha : a < (⟨2, ![M, N]⟩ : Shape).rank) (hb : b < (⟨2, ![M, N]⟩ : Shape).rank), a = b →
      (j ⟨a, ha⟩).val = (j ⟨b, hb⟩).val := fun a b ha hb e => by subst e; rfl
  exact key _ _ _ _ (by simp [h.lb, h.ln, h.rn])

/-- The contraction's sum, re-indexed by the shared coordinate k. -/
theorem sum_contr {α : Type*} [AddCommMonoid α] [Mul α] (h : IsPlain D)
    (l : (⟨2, ![M, K]⟩ : Shape).Idx → α) (r : (⟨2, ![K, N]⟩ : Shape).Idx → α) (p : Fin M) (q : Fin N) :
    ∑ k : D.contr.Idx, l (D.lhsIdx (ix2 p q) k) * r (D.rhsIdx (ix2 p q) k) = ∑ k : Fin K, l (ix2 p k) * r (ix2 k q) := by
  rw [← Equiv.sum_comp (contrEquiv1 D K (contr_rank h) (contr_size h)).symm]
  refine Finset.sum_congr rfl fun k _ => ?_
  have hk := contrEquiv1_symm_val D K (contr_rank h) (contr_size h) k
  have el : D.lhsIdx (ix2 p q) ((contrEquiv1 D K (contr_rank h) (contr_size h)).symm k) = ix2 p k :=
    funext fun a => Fin.ext (by
      match a with
      | ⟨0, _⟩ => exact lhs_row h _ _
      | ⟨1, _⟩ => exact (lhs_col h _ _).trans hk)
  have er : D.rhsIdx (ix2 p q) ((contrEquiv1 D K (contr_rank h) (contr_size h)).symm k) = ix2 k q :=
    funext fun a => Fin.ext (by
      match a with
      | ⟨0, _⟩ => exact (rhs_row h _ _).trans hk
      | ⟨1, _⟩ => exact rhs_col h _ _)
  rw [el, er]

/-- The matrix unit into the zero accumulator, on the extended reals, at (p, q). -/
theorem matmul_zero_apply {φ₁ φ₂ : FTy} (h : IsPlain D) (prec : Option ContractPrecision)
    (l : FVec Ideal ⟨2, ![M, K]⟩ φ₁) (r : FVec Ideal ⟨2, ![K, N]⟩ φ₂) (p : Fin M) (q : Fin N) :
    FloatOps.matmul D prec l r (constant ⟨2, ![M, N]⟩ .f32 0x00000000#32) (ix2 p q) = ∑ k : Fin K, l (ix2 p k) * r (ix2 k q) :=
  (Ideal.matmul_constant_zero_apply D prec l r (ix2 p q)).trans (sum_contr h l r p q)

/-- The host's dot product, on the extended reals, at (p, q). -/
theorem dotGeneral_apply {φ₁ φ₂ : FTy} (h : IsPlain D) (prec : Option ContractPrecision) (sched : HostSchedule)
    (l : FVec Ideal ⟨2, ![M, K]⟩ φ₁) (r : FVec Ideal ⟨2, ![K, N]⟩ φ₂) (p : Fin M) (q : Fin N) :
    FloatOps.dotGeneral D prec sched l r (ix2 p q) = ∑ k : Fin K, l (ix2 p k) * r (ix2 k q) :=
  (Ideal.dotGeneral_apply D prec sched l r (ix2 p q)).trans (sum_contr h l r p q)

/-- The transpose of an [a, b] array at (p, q) is the array at (q, p). -/
theorem transpose_apply2 {α : Type} {a b : Nat} (x : (⟨2, ![a, b]⟩ : Shape).Idx → α)
    (h : (⟨2, ![a, b]⟩ : Shape).Transposes [1, 0] ⟨2, ![b, a]⟩) (p : Fin b) (q : Fin a) :
    transpose ⟨2, ![b, a]⟩ [1, 0] x h (ix2 p q) = x (ix2 q p) :=
  transpose_apply [1, 0] x h (ix2 p q) (ix2 q p) (fun c => match c with
    | ⟨0, _⟩ => rfl
    | ⟨1, _⟩ => rfl)

end Idealize.ShloMosaic.PlainDot

end
-- ==== Proof.Region.lean ====
/-
  Each of the two launches leaves, in its output array, the plain product of its two input arrays as the launch finds them:
  block t of the output is rows 128 t … 128 t + 127 of the product, and the 64 blocks tile the 8192 rows.
-/
import proofs.«112145_j83030307766284_1_alg».proof.Proof.Gen.KernelIdeal.Frame
import proofs.«112145_j83030307766284_1_alg».proof.Proof.Spec
import proofs.«112145_j83030307766284_1_alg».proof.Proof.LibPlainDot
import Idealize.ShloMosaic.Lib.Pipeline.Value
import Idealize.ShloMosaic.PureOps.Ideal.Laws

set_option maxRecDepth 16384

noncomputable section

open scoped BigOperators

namespace Cert.KernelIdeal.Region

open Cert.KernelIdeal Cert.KernelIdeal.Gen Cert.Spec
open Idealize.ShloMosaic Idealize.ShloMosaic.TcCoe Idealize.ShloMosaic.ValueIdx Idealize.SL.Sem

variable (V : (c : Dev nD) → (b : Ref sig .tc) → Buf (Elt Ideal) ((c : Thread nD τ).loc b))

/-! ## What both launches share -/

/-- The offsets of a rectangle that is the whole buffer are the constant zero. -/
theorem zero_offsets : (![0, 0] : Fin 2 → Nat) = fun _ => 0 := funext fun a => by fin_cases a <;> rfl

/-- The matrix unit's dimension numbers are those of a plain product: the left operand's axis 1 against the right
    operand's axis 0, no batch axis. -/
theorem plain_dims : PlainDot.IsPlain dot_S128x16384_S16384x128_S128x128_1_0_0_1_n_n :=
  ⟨rfl, rfl, rfl, rfl, rfl, rfl⟩

/-- Two arrays of rank 2 are equal as soon as they agree at every (p, q). -/
theorem ext_ix2 {n0 n1 : Nat} {α : Type} (Y Z : (⟨2, ![n0, n1]⟩ : Shape).Idx → α)
    (h : ∀ (p : Fin n0) (q : Fin n1), Y (ix2 p q) = Z (ix2 p q)) : Y = Z :=
  funext fun j => by rw [eq_ix2 j]; exact h _ _

/-- Row 128 t + p of an array of 8192 rows: row p of block t, for a block index t below 64. -/
def blockRow (t : Nat) (ht : t < 64) (p : Fin 128) : Fin 8192 := ⟨t * 128 + p.val, by omega⟩

/-! ## Launch 0 -/

/-- Launch 0's payload at (p, q): both shape casts are to the same shape, the truncations are the identity on the
    extended reals, and the matrix unit into the zero accumulator is the sum over k of left (p, k) times right (k, q). -/
theorem pay0_apply (x0 : Vec Ideal S128x16384 .f32) (x1 : Vec Ideal S16384x128 .f32) (p q : Fin 128) :
    k0_pay1 x0 x1 (ix2 p q) = ∑ k : Fin 16384, x0 (ix2 p k) * x1 (ix2 k q) := by
  unfold k0_pay1
  rw [shapeCast_self, shapeCast_self]
  exact PlainDot.matmul_zero_apply plain_dims none _ _ p q

/-- Launch 0's payload of a block whose left operand holds rows r p of A and whose right operand is all of B is the
    product of A and B at (r p, q). -/
theorem pay0_block (A : A2 8192 16384) (B : A2 16384 128) (x0 : Vec Ideal S128x16384 .f32) (x1 : Vec Ideal S16384x128 .f32)
    (r : Fin 128 → Fin 8192)
    (h0 : ∀ (p : Fin 128) (k : Fin 16384), x0 (ix2 p k) = A (ix2 (r p) k))
    (h1 : ∀ (k : Fin 16384) (q : Fin 128), x1 (ix2 k q) = B (ix2 k q))
    (p q : Fin 128) : k0_pay1 x0 x1 (ix2 p q) = prod A B (ix2 (r p) q) := by
  rw [pay0_apply]
  show _ = ∑ k : Fin 16384, A (ix2 (r p) k) * B (ix2 k q)
  exact Finset.sum_congr rfl fun k _ => by rw [h0, h1]

/-- Launch 0's printed index maps over the grid: at point t the left operand's and the output's block index is (t, 0),
    the right operand's is (0, 0). -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Every point of launch 0's grid is below 64. -/
theorem lt_grid0 (t : Fin cfg0.N) : t.val < 64 := Nat.lt_of_lt_of_eq t.isLt N_0

/-- Launch 0's left block at point t is rows 128 t … 128 t + 127 of the left array: entry (p, k) of the block is entry
    (128 t + p, k) of the array. -/
theorem iblk0_0_apply (c : Dev nD) (t : Fin cfg0.N) (p : Fin 128) (k : Fin 16384) (r : Fin 8192)
    (hr : r.val = t.val * 128 + p.val) :
    (iblk0 V c 0 t : Vec Ideal S128x16384 .f32) (ix2 p k) = (V c main_v15 : A2 8192 16384) (ix2 r k) := by
  obtain ⟨e0, e1, -⟩ := idx_facts0 t
  unfold iblk0
  rw [View.read_apply]
  show V c main_v15 _ = V c main_v15 _
  congr 1
  funext a
  apply Fin.ext
  match a with
  | ⟨0, _⟩ => show win0_0.index t (0 : Fin 2) * 128 + 1 * p.val = r.val; rw [e0, hr]; omega
  | ⟨1, _⟩ => show win0_0.index t (1 : Fin 2) * 16384 + 1 * k.val = k.val; rw [e1]; omega

/-- Launch 0's right block at every point is the whole right array. -/
theorem iblk0_1_apply (c : Dev nD) (t : Fin cfg0.N) (k : Fin 16384) (q : Fin 128) :
    (iblk0 V c 1 t : Vec Ideal S16384x128 .f32) (ix2 k q) = (V c main_v14 : A2 16384 128) (ix2 k q) := by
  obtain ⟨-, -, e2, e3, -⟩ := idx_facts0 t
  unfold iblk0
  rw [View.read_apply]
  show V c main_v14 _ = V c main_v14 _
  congr 1
  funext a
  apply Fin.ext
  match a with
  | ⟨0, _⟩ => show win0_1.index t (0 : Fin 2) * 16384 + 1 * k.val = k.val; rw [e2]; omega
  | ⟨1, _⟩ => show win0_1.index t (1 : Fin 2) * 128 + 1 * q.val = q.val; rw [e3]; omega

/-- What point t of launch 0 writes back is block t of the product of the arrays the launch reads: the one store
    through the whole output buffer leaves the payload of the two whole input buffers, entry (p, q) of block t of the
    output array is entry (128 t + p, q) of the array, and the payload there is the product there. -/
theorem flushed0_eq (c : Dev nD) (t : Fin cfg0.N) :
    (dat0 (F := Ideal) V c).flushed 2 t
      = ((cfg0.win 2).blk t).view.read (Elt Ideal) (prod (V c main_v15) (V c main_v14)) := by
  show (cfg0.win 2).cut (grid0.coords t) ((dat0 V c).after 2 t) = _
  rw [after0_2]
  unfold out0_2
  rw [View.canon_unit_zero zero_offsets]
  simp only [View.ld_unit_zero (S := S128x16384) zero_offsets, View.ld_unit_zero (S := S16384x128) zero_offsets]
  obtain ⟨-, -, -, -, e4, e5⟩ := idx_facts0 t
  refine ext_ix2 (n0 := 128) (n1 := 128) _ _ fun p q => ?_
  rw [View.read_apply, cast_eq]
  have he : ((cfg0.win 2).blk t).view.emb (ix2 p q) = ix2 (blockRow t.val (lt_grid0 t) p) q := by
    funext a
    apply Fin.ext
    match a with
    | ⟨0, _⟩ => show win0_2.index t (0 : Fin 2) * 128 + 1 * p.val = t.val * 128 + p.val; rw [e4]; omega
    | ⟨1, _⟩ => show win0_2.index t (1 : Fin 2) * 128 + 1 * q.val = q.val; rw [e5]; omega
  rw [he]
  exact pay0_block (V c main_v15) (V c main_v14) (iblk0 V c 0 t) (iblk0 V c 1 t) (blockRow t.val (lt_grid0 t))
    (fun p k => iblk0_0_apply V c t p k _ rfl) (fun k q => iblk0_1_apply V c t k q) p q

/-- An index of launch 0's output array is in point t's block iff each coordinate is in the block's range on its axis. -/
theorem mem_blk0 (t : Fin cfg0.N) (i : S8192x128.Idx) :
    i ∈ ((cfg0.win 2).blk t).view.set ↔ ∀ a : Fin 2, win0_2.index t a * S128x128.size a ≤ (i a).val
      ∧ (i a).val < win0_2.index t a * S128x128.size a + S128x128.size a := by
  show i ∈ ((View.whole main_v17).slice (win0_2.rect t)).set ↔ _
  rw [View.set_slice_whole, Rect.mem_set_unit]
  exact Iff.rfl

/-- Row r of launch 0's output array is in the block of point r / 128, which writes it back. -/
theorem cover0 (i : S8192x128.Idx) :
    ∃ t : Fin cfg0.N, (cfg0.win 2).flush t = true ∧ i ∈ ((cfg0.win 2).blk t).view.set := by
  have hi0 : (i 0).val < 8192 := (i 0).isLt
  have hi1 : (i 1).val < 128 := (i 1).isLt
  obtain ⟨t, ht⟩ : ∃ t : Fin cfg0.N, t.val = (i 0).val / 128 :=
    ⟨⟨(i 0).val / 128, Nat.lt_of_lt_of_eq (by omega) N_0.symm⟩, rfl⟩
  obtain ⟨-, -, -, -, e4, e5⟩ := idx_facts0 t
  refine ⟨t, flush0_2 t, ?_⟩
  rw [mem_blk0]
  intro a
  match a with
  | ⟨0, _⟩ =>
    show win0_2.index t (0 : Fin 2) * 128 ≤ (i 0).val ∧ (i 0).val < win0_2.index t (0 : Fin 2) * 128 + 128
    rw [e4, ht]; omega
  | ⟨1, _⟩ =>
    show win0_2.index t (1 : Fin 2) * 128 ≤ (i 1).val ∧ (i 1).val < win0_2.index t (1 : Fin 2) * 128 + 128
    rw [e5]; omega

/-- Launch 0's output array after the launch is the product of the arrays it reads, as it finds them. -/
theorem final0 (c : Dev nD) :
    (dat0 (F := Ideal) V c).arrAt 2 cfg0.N = prod (V c main_v15) (V c main_v14) :=
  (dat0 V c).arrAt_eq_of_cover 2 (prod (V c main_v15) (V c main_v14)) (fun t _ => flushed0_eq V c t) cover0

/-! ## Launch 1 -/

/-- Launch 1's payload at (p, q): both shape casts are to the same shape, the truncations are the identity on the
    extended reals, and the matrix unit into the zero accumulator is the sum over k of left (p, k) times right (k, q). -/
theorem pay1_apply (x0 : Vec Ideal S128x16384 .f32) (x1 : Vec Ideal S16384x128 .f32) (p q : Fin 128) :
    k1_pay1 x0 x1 (ix2 p q) = ∑ k : Fin 16384, x0 (ix2 p k) * x1 (ix2 k q) := by
  unfold k1_pay1
  rw [shapeCast_self, shapeCast_self]
  exact PlainDot.matmul_zero_apply plain_dims none _ _ p q

/-- Launch 1's payload of a block whose left operand holds rows r p of A and whose right operand is all of B is the
    product of A and B at (r p, q). -/
theorem pay1_block (A : A2 8192 16384) (B : A2 16384 128) (x0 : Vec Ideal S128x16384 .f32) (x1 : Vec Ideal S16384x128 .f32)
    (r : Fin 128 → Fin 8192)
    (h0 : ∀ (p : Fin 128) (k : Fin 16384), x0 (ix2 p k) = A (ix2 (r p) k))
    (h1 : ∀ (k : Fin 16384) (q : Fin 128), x1 (ix2 k q) = B (ix2 k q))
    (p q : Fin 128) : k1_pay1 x0 x1 (ix2 p q) = prod A B (ix2 (r p) q) := by
  rw [pay1_apply]
  show _ = ∑ k : Fin 16384, A (ix2 (r p) k) * B (ix2 k q)
  exact Finset.sum_congr rfl fun k _ => by rw [h0, h1]

/-- Launch 1's printed index maps over the grid: at point t the left operand's and the output's block index is (t, 0),
    the right operand's is (0, 0). -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Every point of launch 1's grid is below 64. -/
theorem lt_grid1 (t : Fin cfg1.N) : t.val < 64 := Nat.lt_of_lt_of_eq t.isLt N_1

/-- Launch 1's left block at point t is rows 128 t … 128 t + 127 of the left array: entry (p, k) of the block is entry
    (128 t + p, k) of the array. -/
theorem iblk1_0_apply (c : Dev nD) (t : Fin cfg1.N) (p : Fin 128) (k : Fin 16384) (r : Fin 8192)
    (hr : r.val = t.val * 128 + p.val) :
    (iblk1 V c 0 t : Vec Ideal S128x16384 .f32) (ix2 p k) = (V c main_v16 : A2 8192 16384) (ix2 r k) := by
  obtain ⟨e0, e1, -⟩ := idx_facts1 t
  unfold iblk1
  rw [View.read_apply]
  show V c main_v16 _ = V c main_v16 _
  congr 1
  funext a
  apply Fin.ext
  match a with
  | ⟨0, _⟩ => show win1_0.index t (0 : Fin 2) * 128 + 1 * p.val = r.val; rw [e0, hr]; omega
  | ⟨1, _⟩ => show win1_0.index t (1 : Fin 2) * 16384 + 1 * k.val = k.val; rw [e1]; omega

/-- Launch 1's right block at every point is the whole right array. -/
theorem iblk1_1_apply (c : Dev nD) (t : Fin cfg1.N) (k : Fin 16384) (q : Fin 128) :
    (iblk1 V c 1 t : Vec Ideal S16384x128 .f32) (ix2 k q) = (V c main_v14 : A2 16384 128) (ix2 k q) := by
  obtain ⟨-, -, e2, e3, -⟩ := idx_facts1 t
  unfold iblk1
  rw [View.read_apply]
  show V c main_v14 _ = V c main_v14 _
  congr 1
  funext a
  apply Fin.ext
  match a with
  | ⟨0, _⟩ => show win1_1.index t (0 : Fin 2) * 16384 + 1 * k.val = k.val; rw [e2]; omega
  | ⟨1, _⟩ => show win1_1.index t (1 : Fin 2) * 128 + 1 * q.val = q.val; rw [e3]; omega

/-- What point t of launch 1 writes back is block t of the product of the arrays the launch reads: the one store
    through the whole output buffer leaves the payload of the two whole input buffers, entry (p, q) of block t of the
    output array is entry (128 t + p, q) of the array, and the payload there is the product there. -/
theorem flushed1_eq (c : Dev nD) (t : Fin cfg1.N) :
    (dat1 (F := Ideal) V c).flushed 2 t
      = ((cfg1.win 2).blk t).view.read (Elt Ideal) (prod (V c main_v16) (V c main_v14)) := by
  show (cfg1.win 2).cut (grid1.coords t) ((dat1 V c).after 2 t) = _
  rw [after1_2]
  unfold out1_2
  rw [View.canon_unit_zero zero_offsets]
  simp only [View.ld_unit_zero (S := S128x16384) zero_offsets, View.ld_unit_zero (S := S16384x128) zero_offsets]
  obtain ⟨-, -, -, -, e4, e5⟩ := idx_facts1 t
  refine ext_ix2 (n0 := 128) (n1 := 128) _ _ fun p q => ?_
  rw [View.read_apply, cast_eq]
  have he : ((cfg1.win 2).blk t).view.emb (ix2 p q) = ix2 (blockRow t.val (lt_grid1 t) p) q := by
    funext a
    apply Fin.ext
    match a with
    | ⟨0, _⟩ => show win1_2.index t (0 : Fin 2) * 128 + 1 * p.val = t.val * 128 + p.val; rw [e4]; omega
    | ⟨1, _⟩ => show win1_2.index t (1 : Fin 2) * 128 + 1 * q.val = q.val; rw [e5]; omega
  rw [he]
  exact pay1_block (V c main_v16) (V c main_v14) (iblk1 V c 0 t) (iblk1 V c 1 t) (blockRow t.val (lt_grid1 t))
    (fun p k => iblk1_0_apply V c t p k _ rfl) (fun k q => iblk1_1_apply V c t k q) p q

/-- An index of launch 1's output array is in point t's block iff each coordinate is in the block's range on its axis. -/
theorem mem_blk1 (t : Fin cfg1.N) (i : S8192x128.Idx) :
    i ∈ ((cfg1.win 2).blk t).view.set ↔ ∀ a : Fin 2, win1_2.index t a * S128x128.size a ≤ (i a).val
      ∧ (i a).val < win1_2.index t a * S128x128.size a + S128x128.size a := by
  show i ∈ ((View.whole main_v18).slice (win1_2.rect t)).set ↔ _
  rw [View.set_slice_whole, Rect.mem_set_unit]
  exact Iff.rfl

/-- Row r of launch 1's output array is in the block of point r / 128, which writes it back. -/
theorem cover1 (i : S8192x128.Idx) :
    ∃ t : Fin cfg1.N, (cfg1.win 2).flush t = true ∧ i ∈ ((cfg1.win 2).blk t).view.set := by
  have hi0 : (i 0).val < 8192 := (i 0).isLt
  have hi1 : (i 1).val < 128 := (i 1).isLt
  obtain ⟨t, ht⟩ : ∃ t : Fin cfg1.N, t.val = (i 0).val / 128 :=
    ⟨⟨(i 0).val / 128, Nat.lt_of_lt_of_eq (by omega) N_1.symm⟩, rfl⟩
  obtain ⟨-, -, -, -, e4, e5⟩ := idx_facts1 t
  refine ⟨t, flush1_2 t, ?_⟩
  rw [mem_blk1]
  intro a
  match a with
  | ⟨0, _⟩ =>
    show win1_2.index t (0 : Fin 2) * 128 ≤ (i 0).val ∧ (i 0).val < win1_2.index t (0 : Fin 2) * 128 + 128
    rw [e4, ht]; omega
  | ⟨1, _⟩ =>
    show win1_2.index t (1 : Fin 2) * 128 ≤ (i 1).val ∧ (i 1).val < win1_2.index t (1 : Fin 2) * 128 + 128
    rw [e5]; omega

/-- Launch 1's output array after the launch is the product of the arrays it reads, as it finds them. -/
theorem final1 (c : Dev nD) :
    (dat1 (F := Ideal) V c).arrAt 2 cfg1.N = prod (V c main_v16) (V c main_v14) :=
  (dat1 V c).arrAt_eq_of_cover 2 (prod (V c main_v16) (V c main_v14)) (fun t _ => flushed1_eq V c t) cover1

end Cert.KernelIdeal.Region

end
-- ==== Proof.HostHead.lean ====
/-
  The host operations before the two launches, read at an index: the two edge tensors viewed [8192, 16384]
  (column 2 a + b is source a, channel b) and the [16384, 128] table whose row 2 a + b holds the node tables' row a in the
  columns of channel b and zero in the other channel's.
-/
import proofs.«112145_j83030307766284_1_alg».proof.Proof.Gen.KernelIdeal.Launch
import proofs.«112145_j83030307766284_1_alg».proof.Proof.Spec
import proofs.«112145_j83030307766284_1_alg».proof.Proof.LibPlainDot
import Idealize.ShloMosaic.Lib.Pipeline.Value
import Idealize.ShloMosaic.Lib.StableHlo.Run
import Idealize.ShloMosaic.PureOps.Ideal.Laws

set_option maxRecDepth 16384

noncomputable section

open scoped BigOperators

namespace Cert.KernelIdeal.Head

open Cert.KernelIdeal Cert.KernelIdeal.Gen Cert.Spec
open Idealize.ShloMosaic Idealize.ShloMosaic.TcCoe Idealize.ShloMosaic.ValueIdx Idealize.SL.Sem
open Idealize.ShloMosaic.StableHlo

variable (U : Valuation τ sig (Elt Ideal))

/-- The dense layer's output [8192, 32]: the product of the node features with the first weights, the first bias added along the rows. -/
def dense : A2 8192 32 :=
  addf (F := Ideal)
    (Host.dotGeneral (φ₁ := .f32) (φ₂ := .f32) dot_S8192x128_S128x32_S8192x32_1_0_0_1_n_n none
      (U (Proc.devRef .tc main_arg0)) (U (Proc.devRef .tc main_arg4)))
    (broadcastInDim S8192x32 ![0, 1] bcast_S1x32_S8192x32_0_1
      (broadcastInDim S1x32 ![1] bcast_S32_S1x32_1 (U (Proc.devRef .tc main_arg5))))

/-- Entry (a, f) of the dense layer's output is the specification's. -/
theorem dense_apply (a : Fin 8192) (f : Fin 32) :
    dense U (ix2 a f)
      = xdw (U (Proc.devRef .tc main_arg0)) (U (Proc.devRef .tc main_arg4)) (U (Proc.devRef .tc main_arg5)) a f := by
  unfold dense
  rw [addf_apply]
  show _ + _ = (∑ k : Fin 128, _) + _
  congr 1
  · exact PlainDot.dotGeneral_apply ⟨rfl, rfl, rfl, rfl, rfl, rfl⟩ none .single _ _ a f
  · refine (broadcastInDim_apply (s := S1x32) (t := S8192x32) _ _ _ (ix2 a f) (ix2 (0 : Fin 1) f) (fun c => match c with
      | ⟨0, _⟩ => rfl
      | ⟨1, _⟩ => rfl)).trans ?_
    exact broadcastInDim_apply (s := S32) (t := S1x32) _ _ _ (ix2 (0 : Fin 1) f) (ix1 f) (fun c => match c with
      | ⟨0, _⟩ => rfl)

/-- The two node tables side by side [8192, 64]: columns 0 … 31 the second weights, columns 32 … 63 the dense layer's output. -/
def tables : A2 8192 64 :=
  concatenate S8192x64 1 [⟨S8192x32, U (Proc.devRef .tc main_arg6)⟩, ⟨S8192x32, dense U⟩]
    concatenates_S8192x32_S8192x32_S8192x64_d1

/-- Column 32 h + f of the side-by-side tables is node table h's column f. -/
theorem tables_apply (a : Fin 8192) (h : Fin 2) (f : Fin 32) :
    tables U (ix2 a (⟨32 * h.val + f.val, by omega⟩ : Fin 64))
      = tbl (U (Proc.devRef .tc main_arg6))
          (xdw (U (Proc.devRef .tc main_arg0)) (U (Proc.devRef .tc main_arg4)) (U (Proc.devRef .tc main_arg5))) h a f := by
  unfold tables
  match h with
  | ⟨0, _⟩ =>
    change _ = if (0 : Fin 2) = 0 then _ else _
    rw [if_pos rfl]
    exact concatenate_pair_apply_left (t := S8192x64) (s₁ := S8192x32) (s₂ := S8192x32) 1 _ _ _
      (ix2 a (⟨32 * 0 + f.val, by omega⟩ : Fin 64)) rfl (ix2 a f) (fun c => match c with
        | ⟨0, _⟩ => rfl
        | ⟨1, _⟩ => by show f.val = 32 * 0 + f.val; omega)
  | ⟨1, _⟩ =>
    change _ = if (1 : Fin 2) = 0 then _ else _
    rw [if_neg (by decide)]
    refine (concatenate_pair_apply_right (t := S8192x64) (s₁ := S8192x32) (s₂ := S8192x32) 1 _ _ _
      (ix2 a (⟨32 * 1 + f.val, by omega⟩ : Fin 64)) rfl rfl (ix2 a f) (fun c hc => match c with
        | ⟨0, _⟩ => rfl
        | ⟨1, _⟩ => absurd rfl hc) (by show f.val + 32 = 32 * 1 + f.val; omega)).trans ?_
    exact dense_apply U a f

/-- The [8192, 64] array of the zero constant. -/
def zeros : A2 8192 64 :=
  broadcastInDim S8192x64 ![] bcast_S_S8192x64 (constant (F := Ideal) S_ FTy.f32 0x00000000#32)

/-- Every entry of it is zero on the extended reals. -/
theorem zeros_apply (j : (⟨2, ![8192, 64]⟩ : Shape).Idx) : zeros j = 0 :=
  (broadcastInDim_apply (s := S_) (t := S8192x64) _ _ _ j ix0 (fun c => c.elim0)).trans
    ((constant_apply _ _).trans Ideal.ofBits_zero_f32)

/-- Two [8192, 64] arrays laid as the two slices of a new middle axis and the result viewed [16384, 64]:
    row 2 a + b is row a of the array b names. -/
def pairRows (X Y : A2 8192 64) : A2 16384 64 :=
  shapeCast S16384x64
    (concatenate S8192x2x64 1
      [⟨S8192x1x64, broadcastInDim S8192x1x64 ![0, 2] bcast_S8192x64_S8192x1x64_0_2 X⟩,
       ⟨S8192x1x64, broadcastInDim S8192x1x64 ![0, 2] bcast_S8192x64_S8192x1x64_0_2 Y⟩]
      concatenates_S8192x1x64_S8192x1x64_S8192x2x64_d1)
    shapeCasts_S8192x2x64_S16384x64

/-- Row 2 a + b of the pairing is row a of the first array when b = 0, of the second when b = 1. -/
theorem pairRows_apply (X Y : A2 8192 64) (a : Fin 8192) (b : Fin 2) (q : Fin 64) :
    pairRows X Y (ix2 (flat a b) q) = if b = 0 then X (ix2 a q) else Y (ix2 a q) := by
  unfold pairRows
  refine (shapeCast_apply (s := S8192x2x64) (t := S16384x64) _ _ (ix2 (flat a b) q) (ix3 a b q) ?_).trans ?_
  · rw [Shape.rowMajor_val_two, Shape.rowMajor_val_three]
    show (a.val * 2 + b.val) * 64 + q.val = (a.val * 2 + b.val) * 64 + q.val
    rfl
  · match b with
    | ⟨0, _⟩ =>
      change _ = if (0 : Fin 2) = 0 then _ else _
      rw [if_pos rfl]
      refine (concatenate_pair_apply_left (t := S8192x2x64) (s₁ := S8192x1x64) (s₂ := S8192x1x64) 1 _ _ _
        (ix3 a (0 : Fin 2) q) rfl (ix3 a (0 : Fin 1) q) (fun c => match c with
          | ⟨0, _⟩ => rfl
          | ⟨1, _⟩ => rfl
          | ⟨2, _⟩ => rfl)).trans ?_
      exact broadcastInDim_apply (s := S8192x64) (t := S8192x1x64) _ _ _ (ix3 a (0 : Fin 1) q) (ix2 a q) (fun c => match c with
        | ⟨0, _⟩ => rfl
        | ⟨1, _⟩ => rfl)
    | ⟨1, _⟩ =>
      change _ = if (1 : Fin 2) = 0 then _ else _
      rw [if_neg (by decide)]
      refine (concatenate_pair_apply_right (t := S8192x2x64) (s₁ := S8192x1x64) (s₂ := S8192x1x64) 1 _ _ _
        (ix3 a (1 : Fin 2) q) rfl rfl (ix3 a (0 : Fin 1) q) (fun c hc => match c with
          | ⟨0, _⟩ => rfl
          | ⟨1, _⟩ => absurd rfl hc
          | ⟨2, _⟩ => rfl) rfl).trans ?_
      exact broadcastInDim_apply (s := S8192x64) (t := S8192x1x64) _ _ _ (ix3 a (0 : Fin 1) q) (ix2 a q) (fun c => match c with
        | ⟨0, _⟩ => rfl
        | ⟨1, _⟩ => rfl)

/-- The table the host operations leave, as one term: the two row pairings side by side along the columns, the first with
    the node tables in the rows of channel 0, the second with them in the rows of channel 1. -/
theorem v14_term :
    after (hostOps0 (F := Ideal)) U (Proc.devRef .tc main_v14)
      = concatenate S16384x128 1
          [⟨S16384x64, pairRows (tables U) zeros⟩, ⟨S16384x64, pairRows zeros (tables U)⟩]
          concatenates_S16384x64_S16384x64_S16384x128_d1 := by
  after_results
  rfl

/-- The first edge tensor viewed [8192, 16384]: column 2 a + b of row n is its entry (n, a, b). -/
theorem head_v15 (n a : Fin 8192) (b : Fin 2) :
    (after (hostOps0 (F := Ideal)) U (Proc.devRef .tc main_v15) : A2 8192 16384) (ix2 n (flat a b))
      = (U (Proc.devRef .tc main_arg1) : A3 8192 8192 2) (ix3 n a b) := by
  show after (hostOps0 (F := Ideal)) U (Proc.devRef .tc main_v15) _ = _
  after_results
  refine (shapeCast_apply (s := S8192x8192x2) (t := S8192x16384) (U (Proc.devRef .tc main_arg1)) shapeCasts_S8192x8192x2_S8192x16384 (ix2 n (flat a b)) (ix3 n a b) ?_)
  rw [Shape.rowMajor_val_two, Shape.rowMajor_val_three]
  show (n.val * 8192 + a.val) * 2 + b.val = n.val * 16384 + (a.val * 2 + b.val)
  omega

/-- The second edge tensor viewed [8192, 16384]. -/
theorem head_v16 (n a : Fin 8192) (b : Fin 2) :
    (after (hostOps0 (F := Ideal)) U (Proc.devRef .tc main_v16) : A2 8192 16384) (ix2 n (flat a b))
      = (U (Proc.devRef .tc main_arg2) : A3 8192 8192 2) (ix3 n a b) := by
  show after (hostOps0 (F := Ideal)) U (Proc.devRef .tc main_v16) _ = _
  after_results
  refine (shapeCast_apply (s := S8192x8192x2) (t := S8192x16384) (U (Proc.devRef .tc main_arg2)) shapeCasts_S8192x8192x2_S8192x16384 (ix2 n (flat a b)) (ix3 n a b) ?_)
  rw [Shape.rowMajor_val_two, Shape.rowMajor_val_three]
  show (n.val * 8192 + a.val) * 2 + b.val = n.val * 16384 + (a.val * 2 + b.val)
  omega

/-- The channel-selecting table: row 2 a + b, column (e, h, f) holds node table h's entry (a, f) when b = e, else zero. -/
theorem head_v14 (a : Fin 8192) (b e h : Fin 2) (f : Fin 32) :
    (after (hostOps0 (F := Ideal)) U (Proc.devRef .tc main_v14) : A2 16384 128) (ix2 (flat a b) (col e h f))
      = if b = e then
          tbl (U (Proc.devRef .tc main_arg6))
            (xdw (U (Proc.devRef .tc main_arg0)) (U (Proc.devRef .tc main_arg4)) (U (Proc.devRef .tc main_arg5))) h a f
        else 0 := by
  show after (hostOps0 (F := Ideal)) U (Proc.devRef .tc main_v14) _ = _
  rw [v14_term]
  match e with
  | ⟨0, _⟩ =>
    -- columns 0 … 63: the first pairing, at column 32 h + f
    refine (concatenate_pair_apply_left (t := S16384x128) (s₁ := S16384x64) (s₂ := S16384x64) 1 _ _ _
      (ix2 (flat a b) (col 0 h f)) rfl (ix2 (flat a b) (⟨32 * h.val + f.val, by omega⟩ : Fin 64)) (fun c => match c with
        | ⟨0, _⟩ => rfl
        | ⟨1, _⟩ => by show 32 * h.val + f.val = 64 * 0 + 32 * h.val + f.val; omega)).trans ?_
    rw [pairRows_apply]
    match b with
    | ⟨0, _⟩ =>
      change (if (0 : Fin 2) = 0 then _ else _) = if (0 : Fin 2) = 0 then _ else _
      rw [if_pos rfl, if_pos rfl]
      exact tables_apply U a h f
    | ⟨1, _⟩ =>
      change (if (1 : Fin 2) = 0 then _ else _) = if (1 : Fin 2) = 0 then _ else _
      rw [if_neg (by decide), if_neg (by decide)]
      exact zeros_apply _
  | ⟨1, _⟩ =>
    -- columns 64 … 127: the second pairing, at column 32 h + f
    refine (concatenate_pair_apply_right (t := S16384x128) (s₁ := S16384x64) (s₂ := S16384x64) 1 _ _ _
      (ix2 (flat a b) (col 1 h f)) rfl rfl (ix2 (flat a b) (⟨32 * h.val + f.val, by omega⟩ : Fin 64)) (fun c hc => match c with
        | ⟨0, _⟩ => rfl
        | ⟨1, _⟩ => absurd rfl hc) (by show 32 * h.val + f.val + 64 = 64 * 1 + 32 * h.val + f.val; omega)).trans ?_
    rw [pairRows_apply]
    match b with
    | ⟨0, _⟩ =>
      change (if (0 : Fin 2) = 0 then _ else _) = if (0 : Fin 2) = 1 then _ else _
      rw [if_pos rfl, if_neg (by decide)]
      exact zeros_apply _
    | ⟨1, _⟩ =>
      change (if (1 : Fin 2) = 0 then _ else _) = if (1 : Fin 2) = 1 then _ else _
      rw [if_neg (by decide), if_pos rfl]
      exact tables_apply U a h f

end Cert.KernelIdeal.Head

end
-- ==== Proof.HostTail.lean ====
/-
  The host operations after the two launches, read at an index: the result at (e, 8192 s + n, f) from launch s's output
  array at row n, columns (e, 0, f) and (e, 1, f), the scalar α, the bias b2 and the closing bias.
-/
import proofs.«112145_j83030307766284_1_alg».proof.Proof.Gen.KernelIdeal.Launch
import proofs.«112145_j83030307766284_1_alg».proof.Proof.Spec
import Idealize.ShloMosaic.Lib.Pipeline.Value
import Idealize.ShloMosaic.Lib.Pipeline.Frame
import Idealize.ShloMosaic.Lib.StableHlo.Run
import Idealize.ShloMosaic.PureOps.Ideal.Laws

set_option maxRecDepth 16384

noncomputable section

open scoped BigOperators

namespace Cert.KernelIdeal.Tail

open Cert.KernelIdeal Cert.KernelIdeal.Gen Cert.Spec
open Idealize.ShloMosaic Idealize.ShloMosaic.TcCoe Idealize.ShloMosaic.ValueIdx Idealize.SL.Sem
open Idealize.ShloMosaic.StableHlo

variable (U : Valuation τ sig (Elt Ideal))

/-- The scalar α, the bias b2 and the closing bias, as the host operations after the launches find them. -/
abbrev scal : A0 := U (Proc.devRef .tc main_arg3)
abbrev b2v : A1 32 := U (Proc.devRef .tc main_arg7)
abbrev biasv : A1 32 := U (Proc.devRef .tc main_arg8)

/-- Launch s's output array, as the host operations after the launches find it. -/
def outArr (s : Fin 2) : A2 8192 128 :=
  if s = 0 then (U (Proc.devRef .tc main_v17) : A2 8192 128) else (U (Proc.devRef .tc main_v18) : A2 8192 128)

/-! ## One sheet at an index

A sheet is  α · (x[:, o₀ : o₀ + 32] + b2) + (1 − α) · x[:, o₁ : o₁ + 32]  over a launch's output x : [8192, 128], the scalar
and the bias broadcast over the rows. -/

/-- The scalar broadcast to [8192, 32], at any index. -/
theorem scalar_at (α : A0) (n : Fin 8192) (f : Fin 32) :
    (broadcastInDim S8192x32 ![] bcast_S_S8192x32 α : A2 8192 32) (ix2 n f) = α ix0 :=
  broadcastInDim_apply _ _ α (ix2 n f) ix0 fun a => a.elim0

/-- A [32] vector broadcast to [1, 32] and then over the 8192 rows, at (n, f): its entry f. -/
theorem rowvec_at (b : A1 32) (n : Fin 8192) (f : Fin 32) :
    (broadcastInDim S8192x32 ![0, 1] bcast_S1x32_S8192x32_0_1 (broadcastInDim S1x32 ![1] bcast_S32_S1x32_1 b) : A2 8192 32) (ix2 n f)
      = b (ix1 f) := by
  refine (broadcastInDim_apply _ _ _ (ix2 n f) (ix2 (0 : Fin 1) f) fun a => match a with
    | ⟨0, _⟩ => rfl
    | ⟨1, _⟩ => rfl).trans ?_
  exact broadcastInDim_apply _ _ b (ix2 (0 : Fin 1) f) (ix1 f) fun a => match a with
    | ⟨0, _⟩ => rfl

/-- The 32 columns from column o on, at (n, f): column o + f of row n. -/
theorem slice_at (x : A2 8192 128) (o : Nat) (h : S8192x128.Slices ![0, o] S8192x32) (n : Fin 8192) (f : Fin 32) (q : Fin 128)
    (hq : q.val = o + f.val) :
    (extractStridedSlice S8192x32 ![0, o] x h : A2 8192 32) (ix2 n f) = x (ix2 n q) :=
  extractStridedSlice_apply _ x h (ix2 n f) (ix2 n q) fun a => match a with
    | ⟨0, _⟩ => by show n.val = 0 + n.val; omega
    | ⟨1, _⟩ => by show q.val = o + f.val; exact hq

/-- A sheet as the operations build it. -/
abbrev sheetTerm (α : A0) (b2 : A1 32) (x : A2 8192 128) (o0 o1 : Nat)
    (h0 : S8192x128.Slices ![0, o0] S8192x32) (h1 : S8192x128.Slices ![0, o1] S8192x32) : A2 8192 32 :=
  addf (F := Ideal) (φ := .f32)
    (mulf (F := Ideal) (φ := .f32) (broadcastInDim S8192x32 ![] bcast_S_S8192x32 α)
      (addf (F := Ideal) (φ := .f32) (extractStridedSlice S8192x32 ![0, o0] x h0)
        (broadcastInDim S8192x32 ![0, 1] bcast_S1x32_S8192x32_0_1 (broadcastInDim S1x32 ![1] bcast_S32_S1x32_1 b2))))
    (mulf (F := Ideal) (φ := .f32)
      (broadcastInDim S8192x32 ![] bcast_S_S8192x32
        (subf (F := Ideal) (φ := .f32) (constant (F := Ideal) S_ .f32 0x3F800000#32) α))
      (extractStridedSlice S8192x32 ![0, o1] x h1))

/-- The sheet at (n, f), its two slices landing on columns q₀ = o₀ + f and q₁ = o₁ + f. -/
theorem sheet_at (α : A0) (b2 : A1 32) (x : A2 8192 128) (o0 o1 : Nat)
    (h0 : S8192x128.Slices ![0, o0] S8192x32) (h1 : S8192x128.Slices ![0, o1] S8192x32)
    (n : Fin 8192) (f : Fin 32) (q0 q1 : Fin 128) (hq0 : q0.val = o0 + f.val) (hq1 : q1.val = o1 + f.val) :
    sheetTerm α b2 x o0 o1 h0 h1 (ix2 n f)
      = α ix0 * (x (ix2 n q0) + b2 (ix1 f)) + ((Ideal.ofBits .f32 0x3F800000#32 : EReal) - α ix0) * x (ix2 n q1) := by
  show (broadcastInDim S8192x32 ![] bcast_S_S8192x32 α : A2 8192 32) (ix2 n f)
        * ((extractStridedSlice S8192x32 ![0, o0] x h0 : A2 8192 32) (ix2 n f)
          + (broadcastInDim S8192x32 ![0, 1] bcast_S1x32_S8192x32_0_1 (broadcastInDim S1x32 ![1] bcast_S32_S1x32_1 b2) : A2 8192 32) (ix2 n f))
      + (broadcastInDim S8192x32 ![] bcast_S_S8192x32
          (subf (F := Ideal) (φ := .f32) (constant (F := Ideal) S_ .f32 0x3F800000#32) α) : A2 8192 32) (ix2 n f)
        * (extractStridedSlice S8192x32 ![0, o1] x h1 : A2 8192 32) (ix2 n f) = _
  rw [scalar_at α, scalar_at, slice_at x o0 h0 n f q0 hq0, slice_at x o1 h1 n f q1 hq1, rowvec_at]
  rfl

/-! ## The concatenations and the closing bias at an index

The sheets a₀, a₁ (channel 0 of launches 0, 1) and c₀, c₁ (channel 1) are laid  [[a₀; a₁], [c₀; c₁]] : [2, 16384, 32]  and
the bias added along the last axis. -/

/-- Two [8192, 32] sheets one above the other, at a row below 8192: the first. -/
theorem rows_lo (a0 a1 : A2 8192 32) (r : Fin 16384) (n : Fin 8192) (f : Fin 32) (hr : r.val = n.val) :
    (concatenate S16384x32 0 [⟨S8192x32, a0⟩, ⟨S8192x32, a1⟩] concatenates_S8192x32_S8192x32_S16384x32_d0 : A2 16384 32) (ix2 r f)
      = a0 (ix2 n f) :=
  concatenate_pair_apply_left 0 a0 a1 _ (ix2 r f) rfl (ix2 n f) fun b => match b with
    | ⟨0, _⟩ => by show n.val = r.val; omega
    | ⟨1, _⟩ => rfl

/-- Two [8192, 32] sheets one above the other, at row 8192 + n: the second at row n. -/
theorem rows_hi (a0 a1 : A2 8192 32) (r : Fin 16384) (n : Fin 8192) (f : Fin 32) (hr : r.val = 8192 + n.val) :
    (concatenate S16384x32 0 [⟨S8192x32, a0⟩, ⟨S8192x32, a1⟩] concatenates_S8192x32_S8192x32_S16384x32_d0 : A2 16384 32) (ix2 r f)
      = a1 (ix2 n f) :=
  concatenate_pair_apply_right 0 a0 a1 _ (ix2 r f) rfl rfl (ix2 n f)
    (fun b => match b with
      | ⟨0, _⟩ => fun hb => absurd rfl hb
      | ⟨1, _⟩ => fun _ => rfl)
    (by show n.val + 8192 = r.val; omega)

/-- A [16384, 32] array given a leading unit axis. -/
theorem lift_at (y : A2 16384 32) (r : Fin 16384) (f : Fin 32) :
    (broadcastInDim S1x16384x32 ![1, 2] bcast_S16384x32_S1x16384x32_1_2 y : A3 1 16384 32) (ix3 (0 : Fin 1) r f) = y (ix2 r f) :=
  broadcastInDim_apply _ _ y (ix3 (0 : Fin 1) r f) (ix2 r f) fun a => match a with
    | ⟨0, _⟩ => rfl
    | ⟨1, _⟩ => rfl

/-- Two [1, 16384, 32] arrays stacked on the leading axis, at channel 0: the first. -/
theorem chan_lo (y0 y1 : A3 1 16384 32) (r : Fin 16384) (f : Fin 32) :
    (concatenate S2x16384x32 0 [⟨S1x16384x32, y0⟩, ⟨S1x16384x32, y1⟩] concatenates_S1x16384x32_S1x16384x32_S2x16384x32_d0
        : A3 2 16384 32) (ix3 (0 : Fin 2) r f)
      = y0 (ix3 (0 : Fin 1) r f) :=
  concatenate_pair_apply_left 0 y0 y1 _ (ix3 (0 : Fin 2) r f) rfl (ix3 (0 : Fin 1) r f) fun b => match b with
    | ⟨0, _⟩ => rfl
    | ⟨1, _⟩ => rfl
    | ⟨2, _⟩ => rfl

/-- … at channel 1: the second. -/
theorem chan_hi (y0 y1 : A3 1 16384 32) (r : Fin 16384) (f : Fin 32) :
    (concatenate S2x16384x32 0 [⟨S1x16384x32, y0⟩, ⟨S1x16384x32, y1⟩] concatenates_S1x16384x32_S1x16384x32_S2x16384x32_d0
        : A3 2 16384 32) (ix3 (1 : Fin 2) r f)
      = y1 (ix3 (0 : Fin 1) r f) :=
  concatenate_pair_apply_right 0 y0 y1 _ (ix3 (1 : Fin 2) r f) rfl rfl (ix3 (0 : Fin 1) r f)
    (fun b => match b with
      | ⟨0, _⟩ => fun hb => absurd rfl hb
      | ⟨1, _⟩ => fun _ => rfl
      | ⟨2, _⟩ => fun _ => rfl)
    rfl

/-- A [32] vector broadcast to [1, 1, 32] and then to [2, 16384, 32], at (e, r, f): its entry f. -/
theorem lastvec_at (b : A1 32) (e : Fin 2) (r : Fin 16384) (f : Fin 32) :
    (broadcastInDim S2x16384x32 ![0, 1, 2] bcast_S1x1x32_S2x16384x32_0_1_2 (broadcastInDim S1x1x32 ![2] bcast_S32_S1x1x32_2 b)
        : A3 2 16384 32) (ix3 e r f)
      = b (ix1 f) := by
  refine (broadcastInDim_apply _ _ _ (ix3 e r f) (ix3 (0 : Fin 1) (0 : Fin 1) f) fun a => match a with
    | ⟨0, _⟩ => rfl
    | ⟨1, _⟩ => rfl
    | ⟨2, _⟩ => rfl).trans ?_
  exact broadcastInDim_apply _ _ b (ix3 (0 : Fin 1) (0 : Fin 1) f) (ix1 f) fun a => match a with
    | ⟨0, _⟩ => rfl

/-- The four sheets laid [[a₀; a₁], [c₀; c₁]]. -/
abbrev stack (a0 a1 c0 c1 : A2 8192 32) : A3 2 16384 32 :=
  concatenate S2x16384x32 0
    [⟨S1x16384x32, broadcastInDim S1x16384x32 ![1, 2] bcast_S16384x32_S1x16384x32_1_2
        (concatenate S16384x32 0 [⟨S8192x32, a0⟩, ⟨S8192x32, a1⟩] concatenates_S8192x32_S8192x32_S16384x32_d0)⟩,
     ⟨S1x16384x32, broadcastInDim S1x16384x32 ![1, 2] bcast_S16384x32_S1x16384x32_1_2
        (concatenate S16384x32 0 [⟨S8192x32, c0⟩, ⟨S8192x32, c1⟩] concatenates_S8192x32_S8192x32_S16384x32_d0)⟩]
    concatenates_S1x16384x32_S1x16384x32_S2x16384x32_d0

theorem stack_00 (a0 a1 c0 c1 : A2 8192 32) (n : Fin 8192) (f : Fin 32) :
    stack a0 a1 c0 c1 (ix3 0 (row 0 n) f) = a0 (ix2 n f) := by
  refine (chan_lo _ _ (row 0 n) f).trans ?_
  refine (lift_at _ (row 0 n) f).trans ?_
  exact rows_lo a0 a1 (row 0 n) n f (by show 0 * 8192 + n.val = n.val; omega)

theorem stack_01 (a0 a1 c0 c1 : A2 8192 32) (n : Fin 8192) (f : Fin 32) :
    stack a0 a1 c0 c1 (ix3 0 (row 1 n) f) = a1 (ix2 n f) := by
  refine (chan_lo _ _ (row 1 n) f).trans ?_
  refine (lift_at _ (row 1 n) f).trans ?_
  exact rows_hi a0 a1 (row 1 n) n f (by show 1 * 8192 + n.val = 8192 + n.val; omega)

theorem stack_10 (a0 a1 c0 c1 : A2 8192 32) (n : Fin 8192) (f : Fin 32) :
    stack a0 a1 c0 c1 (ix3 1 (row 0 n) f) = c0 (ix2 n f) := by
  refine (chan_hi _ _ (row 0 n) f).trans ?_
  refine (lift_at _ (row 0 n) f).trans ?_
  exact rows_lo c0 c1 (row 0 n) n f (by show 0 * 8192 + n.val = n.val; omega)

theorem stack_11 (a0 a1 c0 c1 : A2 8192 32) (n : Fin 8192) (f : Fin 32) :
    stack a0 a1 c0 c1 (ix3 1 (row 1 n) f) = c1 (ix2 n f) := by
  refine (chan_hi _ _ (row 1 n) f).trans ?_
  refine (lift_at _ (row 1 n) f).trans ?_
  exact rows_hi c0 c1 (row 1 n) n f (by show 1 * 8192 + n.val = 8192 + n.val; omega)

/-- The result array as the last eight operations build it from the four sheets and the bias. -/
abbrev tailTerm (a0 a1 c0 c1 : A2 8192 32) (b : A1 32) : A3 2 16384 32 :=
  addf (F := Ideal) (φ := .f32) (stack a0 a1 c0 c1)
    (broadcastInDim S2x16384x32 ![0, 1, 2] bcast_S1x1x32_S2x16384x32_0_1_2 (broadcastInDim S1x1x32 ![2] bcast_S32_S1x1x32_2 b))

theorem tailTerm_at (a0 a1 c0 c1 : A2 8192 32) (b : A1 32) (e : Fin 2) (r : Fin 16384) (f : Fin 32) :
    tailTerm a0 a1 c0 c1 b (ix3 e r f) = stack a0 a1 c0 c1 (ix3 e r f) + b (ix1 f) := by
  show stack a0 a1 c0 c1 (ix3 e r f)
      + (broadcastInDim S2x16384x32 ![0, 1, 2] bcast_S1x1x32_S2x16384x32_0_1_2 (broadcastInDim S1x1x32 ![2] bcast_S32_S1x1x32_2 b)
          : A3 2 16384 32) (ix3 e r f) = _
  rw [lastvec_at]

/-! ## The operations in two stretches -/

/-- The eight slices and the four sheets: the first 48 operations. -/
abbrev opsA : List (HloOp τ sig (Elt Ideal)) := (hostOps2 (F := Ideal)).take 48
/-- The two row concatenations, the channel concatenation and the closing bias: the last 8 operations. -/
abbrev opsB : List (HloOp τ sig (Elt Ideal)) := (hostOps2 (F := Ideal)).drop 48

theorem after_split : after (hostOps2 (F := Ideal)) U = after opsB (after opsA U) := by
  rw [← StableHlo.after_append, List.take_append_drop]

/-- The last stretch, from any contents. -/
theorem tailB (W : Valuation τ sig (Elt Ideal)) :
    after opsB W (Proc.devRef .tc main_v70)
      = tailTerm (W (Proc.devRef .tc main_v35)) (W (Proc.devRef .tc main_v53)) (W (Proc.devRef .tc main_v44))
          (W (Proc.devRef .tc main_v62)) (W (Proc.devRef .tc main_arg8)) := by
  simp only [opsB, List.drop]
  after_results

/-- The four sheets after the first stretch: channel e of launch s is built from columns 64 e … 64 e + 63 of launch s's
    output. -/
theorem sheetA_35 : after opsA U (Proc.devRef .tc main_v35)
    = sheetTerm (scal U) (b2v U) (U (Proc.devRef .tc main_v17)) 0 32 slices_S8192x128_S8192x32_0_0 slices_S8192x128_S8192x32_0_32 := by
  simp only [opsA, List.take]
  after_results_simp

theorem sheetA_44 : after opsA U (Proc.devRef .tc main_v44)
    = sheetTerm (scal U) (b2v U) (U (Proc.devRef .tc main_v17)) 64 96 slices_S8192x128_S8192x32_0_64 slices_S8192x128_S8192x32_0_96 := by
  simp only [opsA, List.take]
  after_results_simp

theorem sheetA_53 : after opsA U (Proc.devRef .tc main_v53)
    = sheetTerm (scal U) (b2v U) (U (Proc.devRef .tc main_v18)) 0 32 slices_S8192x128_S8192x32_0_0 slices_S8192x128_S8192x32_0_32 := by
  simp only [opsA, List.take]
  after_results_simp

theorem sheetA_62 : after opsA U (Proc.devRef .tc main_v62)
    = sheetTerm (scal U) (b2v U) (U (Proc.devRef .tc main_v18)) 64 96 slices_S8192x128_S8192x32_0_64 slices_S8192x128_S8192x32_0_96 := by
  simp only [opsA, List.take]
  after_results_simp

/-- The first stretch leaves the closing bias as it found it. -/
theorem biasA : after opsA U (Proc.devRef .tc main_arg8) = biasv U := by
  simp only [opsA, List.take]
  after_results_simp

/-- The result array: the last stretch's term over the four sheets. -/
theorem result_eq : (after (hostOps2 (F := Ideal)) U (Proc.devRef .tc main_v70) : A3 2 16384 32)
    = tailTerm
        (sheetTerm (scal U) (b2v U) (U (Proc.devRef .tc main_v17)) 0 32 slices_S8192x128_S8192x32_0_0 slices_S8192x128_S8192x32_0_32)
        (sheetTerm (scal U) (b2v U) (U (Proc.devRef .tc main_v18)) 0 32 slices_S8192x128_S8192x32_0_0 slices_S8192x128_S8192x32_0_32)
        (sheetTerm (scal U) (b2v U) (U (Proc.devRef .tc main_v17)) 64 96 slices_S8192x128_S8192x32_0_64 slices_S8192x128_S8192x32_0_96)
        (sheetTerm (scal U) (b2v U) (U (Proc.devRef .tc main_v18)) 64 96 slices_S8192x128_S8192x32_0_64 slices_S8192x128_S8192x32_0_96)
        (biasv U) := by
  rw [after_split U, tailB, sheetA_35 U, sheetA_44 U, sheetA_53 U, sheetA_62 U, biasA U]

theorem outArr_zero : outArr U 0 = U (Proc.devRef .tc main_v17) := if_pos rfl
theorem outArr_one : outArr U 1 = U (Proc.devRef .tc main_v18) := if_neg (by decide)

/-- The result at (e, 8192 s + n, f), case by case. -/
theorem tail_00 (n : Fin 8192) (f : Fin 32) :
    (after (hostOps2 (F := Ideal)) U (Proc.devRef .tc main_v70) : A3 2 16384 32) (ix3 0 (row 0 n) f)
      = scal U ix0 * (outArr U 0 (ix2 n (col 0 0 f)) + b2v U (ix1 f))
          + ((Ideal.ofBits .f32 0x3F800000#32 : EReal) - scal U ix0) * outArr U 0 (ix2 n (col 0 1 f))
          + biasv U (ix1 f) := by
  rw [result_eq U, outArr_zero, tailTerm_at, stack_00,
    sheet_at _ _ _ 0 32 _ _ n f (col 0 0 f) (col 0 1 f) (by show 64 * 0 + 32 * 0 + f.val = 0 + f.val; omega)
      (by show 64 * 0 + 32 * 1 + f.val = 32 + f.val; omega)]

theorem tail_01 (n : Fin 8192) (f : Fin 32) :
    (after (hostOps2 (F := Ideal)) U (Proc.devRef .tc main_v70) : A3 2 16384 32) (ix3 0 (row 1 n) f)
      = scal U ix0 * (outArr U 1 (ix2 n (col 0 0 f)) + b2v U (ix1 f))
          + ((Ideal.ofBits .f32 0x3F800000#32 : EReal) - scal U ix0) * outArr U 1 (ix2 n (col 0 1 f))
          + biasv U (ix1 f) := by
  rw [result_eq U, outArr_one, tailTerm_at, stack_01,
    sheet_at _ _ _ 0 32 _ _ n f (col 0 0 f) (col 0 1 f) (by show 64 * 0 + 32 * 0 + f.val = 0 + f.val; omega)
      (by show 64 * 0 + 32 * 1 + f.val = 32 + f.val; omega)]

theorem tail_10 (n : Fin 8192) (f : Fin 32) :
    (after (hostOps2 (F := Ideal)) U (Proc.devRef .tc main_v70) : A3 2 16384 32) (ix3 1 (row 0 n) f)
      = scal U ix0 * (outArr U 0 (ix2 n (col 1 0 f)) + b2v U (ix1 f))
          + ((Ideal.ofBits .f32 0x3F800000#32 : EReal) - scal U ix0) * outArr U 0 (ix2 n (col 1 1 f))
          + biasv U (ix1 f) := by
  rw [result_eq U, outArr_zero, tailTerm_at, stack_10,
    sheet_at _ _ _ 64 96 _ _ n f (col 1 0 f) (col 1 1 f) (by show 64 * 1 + 32 * 0 + f.val = 64 + f.val; omega)
      (by show 64 * 1 + 32 * 1 + f.val = 96 + f.val; omega)]

theorem tail_11 (n : Fin 8192) (f : Fin 32) :
    (after (hostOps2 (F := Ideal)) U (Proc.devRef .tc main_v70) : A3 2 16384 32) (ix3 1 (row 1 n) f)
      = scal U ix0 * (outArr U 1 (ix2 n (col 1 0 f)) + b2v U (ix1 f))
          + ((Ideal.ofBits .f32 0x3F800000#32 : EReal) - scal U ix0) * outArr U 1 (ix2 n (col 1 1 f))
          + biasv U (ix1 f) := by
  rw [result_eq U, outArr_one, tailTerm_at, stack_11,
    sheet_at _ _ _ 64 96 _ _ n f (col 1 0 f) (col 1 1 f) (by show 64 * 1 + 32 * 0 + f.val = 64 + f.val; omega)
      (by show 64 * 1 + 32 * 1 + f.val = 96 + f.val; omega)]

/-- The result at (e, 8192 s + n, f). -/
theorem tail_at (e s : Fin 2) (n : Fin 8192) (f : Fin 32) :
    (after (hostOps2 (F := Ideal)) U (Proc.devRef .tc main_v70) : A3 2 16384 32) (ix3 e (row s n) f)
      = scal U ix0 * (outArr U s (ix2 n (col e 0 f)) + b2v U (ix1 f))
          + ((Ideal.ofBits .f32 0x3F800000#32 : EReal) - scal U ix0) * outArr U s (ix2 n (col e 1 f))
          + biasv U (ix1 f) := by
  match e, s with
  | ⟨0, _⟩, ⟨0, _⟩ => exact tail_00 U n f
  | ⟨0, _⟩, ⟨1, _⟩ => exact tail_01 U n f
  | ⟨1, _⟩, ⟨0, _⟩ => exact tail_10 U n f
  | ⟨1, _⟩, ⟨1, _⟩ => exact tail_11 U n f

end Cert.KernelIdeal.Tail

end
-- ==== Proof.KernelValue.lean ====
/-
  The kernel's result array after its run, as the specification's array of the launch contents of its arguments:
  the closing host operations read at an index, each launch's output array as the plain product of the arrays it reads,
  those arrays as the opening host operations leave them, and the law that regroups the product's sum.
-/
import proofs.«112145_j83030307766284_1_alg».proof.Proof.Gen.KernelIdeal.Frame
import proofs.«112145_j83030307766284_1_alg».proof.Proof.Spec
import proofs.«112145_j83030307766284_1_alg».proof.Proof.Region
import proofs.«112145_j83030307766284_1_alg».proof.Proof.HostHead
import proofs.«112145_j83030307766284_1_alg».proof.Proof.HostTail
import Idealize.ShloMosaic.Lib.Pipeline.Value

set_option maxRecDepth 16384

noncomputable section

open scoped BigOperators

namespace Cert.KernelIdeal.KValue

open Cert.KernelIdeal Cert.KernelIdeal.Gen Cert.Spec
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## The arguments, read back through the boundaries' contents -/

/-- No host operation before the launches writes `main_arg3`. -/
theorem W1_main_arg3 (c : Dev nD) : W1 m ρ c (Proc.devRef .tc main_arg3) = m ((c : Thread nD τ).loc main_arg3) :=
  calc W1 m ρ c (Proc.devRef .tc main_arg3)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

/-- No host operation before the launches writes `main_arg7`. -/
theorem W1_main_arg7 (c : Dev nD) : W1 m ρ c (Proc.devRef .tc main_arg7) = m ((c : Thread nD τ).loc main_arg7) :=
  calc W1 m ρ c (Proc.devRef .tc main_arg7)
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl

/-- No host operation before the launches writes `main_arg8`. -/
theorem W1_main_arg8 (c : Dev nD) : W1 m ρ c (Proc.devRef .tc main_arg8) = m ((c : Thread nD τ).loc main_arg8) :=
  calc W1 m ρ c (Proc.devRef .tc main_arg8)
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := rfl

/-- Neither launch writes `main_arg3`, nor does a host operation before them. -/
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := W2_of_ne m ρ c main_arg3 (by decide)
    _ = m ((c : Thread nD τ).loc main_arg3) := W1_main_arg3 m ρ c

/-- Neither launch writes `main_arg7`, nor does a host operation before them. -/
theorem W3_main_arg7 (c : Dev nD) : W3 m ρ c (Proc.devRef .tc main_arg7) = m ((c : Thread nD τ).loc main_arg7) :=
  calc W3 m ρ c (Proc.devRef .tc main_arg7)
    _ = W2 m ρ c (Proc.devRef .tc main_arg7) := W3_of_ne m ρ c main_arg7 (by decide)
    _ = W1 m ρ c (Proc.devRef .tc main_arg7) := W2_of_ne m ρ c main_arg7 (by decide)
    _ = m ((c : Thread nD τ).loc main_arg7) := W1_main_arg7 m ρ c

/-- Neither launch writes `main_arg8`, nor does a host operation before them. -/
theorem W3_main_arg8 (c : Dev nD) : W3 m ρ c (Proc.devRef .tc main_arg8) = m ((c : Thread nD τ).loc main_arg8) :=
  calc W3 m ρ c (Proc.devRef .tc main_arg8)
    _ = W2 m ρ c (Proc.devRef .tc main_arg8) := W3_of_ne m ρ c main_arg8 (by decide)
    _ = W1 m ρ c (Proc.devRef .tc main_arg8) := W2_of_ne m ρ c main_arg8 (by decide)
    _ = m ((c : Thread nD τ).loc main_arg8) := W1_main_arg8 m ρ c

/-! ## The arrays the launches read -/

/-- Launch 1 finds the table as launch 0 found it: launch 0 only reads it. -/
theorem V2_v14 (c : Dev nD) : V2 m ρ c main_v14 = V1 m ρ c main_v14 :=
  calc V2 m ρ c main_v14
    _ = (dat0 (V1 m ρ) c).arrAt 1 cfg0.N := W2_arr m ρ c 1
    _ = (dat0 (V1 m ρ) c).A 1 := (dat0 (V1 m ρ) c).arrAt_in 1 rfl cfg0.N
    _ = V1 m ρ c main_v14 := A_eq0 (V1 m ρ) c 1

/-- Launch 0 does not touch the second edge tensor's view. -/
theorem V2_v16 (c : Dev nD) : V2 m ρ c main_v16 = V1 m ρ c main_v16 :=
  W2_of_ne m ρ c main_v16 (by decide)

/-- Launch 0's output array as the closing host operations find it. -/
theorem W3_v17 (c : Dev nD) :
    (W3 m ρ c (Proc.devRef .tc main_v17) : A2 8192 128) = prod (V1 m ρ c main_v15) (V1 m ρ c main_v14) :=
  calc (W3 m ρ c (Proc.devRef .tc main_v17) : A2 8192 128)
    _ = W2 m ρ c (Proc.devRef .tc main_v17) := W3_of_ne m ρ c main_v17 (by decide)
    _ = (dat0 (V1 m ρ) c).arrAt 2 cfg0.N := W2_arr m ρ c 2
    _ = prod (V1 m ρ c main_v15) (V1 m ρ c main_v14) := Region.final0 (V1 m ρ) c

/-- Launch 1's output array as the closing host operations find it. -/
theorem W3_v18 (c : Dev nD) :
    (W3 m ρ c (Proc.devRef .tc main_v18) : A2 8192 128) = prod (V1 m ρ c main_v16) (V1 m ρ c main_v14) :=
  calc (W3 m ρ c (Proc.devRef .tc main_v18) : A2 8192 128)
    _ = (dat1 (V2 m ρ) c).arrAt 2 cfg1.N := W3_arr m ρ c 2
    _ = prod (V2 m ρ c main_v16) (V2 m ρ c main_v14) := Region.final1 (V2 m ρ) c
    _ = prod (V1 m ρ c main_v16) (V1 m ρ c main_v14) := by rw [V2_v16, V2_v14]

/-! ## The result -/

/-- Launch s's output array at row n, column (e, h, f): channel e of edge tensor s contracted against node table h. -/
theorem outArr_at (c : Dev nD) (e s h : Fin 2) (n : Fin 8192) (f : Fin 32) :
    Tail.outArr (W3 m ρ c) s (ix2 n (col e h f))
      = agg (if s = 0 then (m ((c : Thread nD τ).loc main_arg1) : A3 8192 8192 2) else m ((c : Thread nD τ).loc main_arg2))
          (tbl (m ((c : Thread nD τ).loc main_arg6))
            (xdw (m ((c : Thread nD τ).loc main_arg0)) (m ((c : Thread nD τ).loc main_arg4)) (m ((c : Thread nD τ).loc main_arg5))) h)
          e n f := by
  unfold Tail.outArr
  by_cases hs : s = 0
  · rw [if_pos hs, if_pos hs, W3_v17]
    exact prod_col _ _ _ _ (fun n a b => Head.head_v15 (W0 m ρ c) n a b) (fun a b e h f => Head.head_v14 (W0 m ρ c) a b e h f) n e h f
  · rw [if_neg hs, if_neg hs, W3_v18]
    exact prod_col _ _ _ _ (fun n a b => Head.head_v16 (W0 m ρ c) n a b) (fun a b e h f => Head.head_v14 (W0 m ρ c) a b e h f) n e h f

/-- The kernel's result array after the run is the specification's array of its arguments' launch contents. -/
theorem kernel_value (c : Dev nD) :
    (W4 m ρ c (Proc.devRef .tc main_v70) : A3 2 16384 32)
      = G ((m ((c : Thread nD τ).loc main_arg3) : A0) ix0) (Ideal.ofBits .f32 0x3F800000#32)
          (m ((c : Thread nD τ).loc main_arg1)) (m ((c : Thread nD τ).loc main_arg2)) (m ((c : Thread nD τ).loc main_arg6))
          (xdw (m ((c : Thread nD τ).loc main_arg0)) (m ((c : Thread nD τ).loc main_arg4)) (m ((c : Thread nD τ).loc main_arg5)))
          (m ((c : Thread nD τ).loc main_arg7)) (m ((c : Thread nD τ).loc main_arg8)) := by
  refine eq_G_of_at _ _ _ _ _ _ _ _ _ fun e s n f => ?_
  show (StableHlo.after (hostOps2 (F := Ideal)) (W3 m ρ c) (Proc.devRef .tc main_v70) : A3 2 16384 32) (ix3 e (row s n) f) = _
  rw [Tail.tail_at, outArr_at, outArr_at]
  unfold Tail.scal Tail.b2v Tail.biasv
  rw [W3_main_arg3, W3_main_arg7, W3_main_arg8]
  rfl

end Cert.KernelIdeal.KValue

end
-- ==== Proof.RefValue.lean ====
/-
  The reference's result read at (e, 8192 s + n, f): the specification's value there.
-/
import proofs.«112145_j83030307766284_1_alg».proof.Proof.RefRead
import proofs.«112145_j83030307766284_1_alg».proof.Proof.Spec
import Idealize.ShloMosaic.Lib.Pipeline.Value
import Idealize.ShloMosaic.PureOps.Ideal.Laws

set_option maxRecDepth 16384

noncomputable section

open scoped BigOperators

namespace Cert.ReferenceIdeal.RefValue

open Cert.ReferenceIdeal Cert.ReferenceIdeal.Gen Cert.ReferenceIdeal.ReadP Cert.Spec
open Idealize.ShloMosaic Idealize.ShloMosaic.TcCoe Idealize.ShloMosaic.ValueIdx Idealize.SL.Sem

/-- The dense layer's stage at (a, f) is the specification's dense layer: the product's row a against column f,
    plus the bias at f. -/
theorem xdw_at (x0 : A2 8192 128) (x4 : A2 128 32) (x5 : A1 32) (a : Fin 8192) (f : Fin 32) :
    val_main_v3 (F := Ideal) x0 x4 x5 (ix2 a f) = xdw x0 x4 x5 a f := by
  have el : ∀ k : Fin 128, lidx_main_v0 (ix2 a f) k = ix2 a k := fun k =>
    funext fun d => Fin.ext (by match d with | ⟨0, _⟩ => rfl | ⟨1, _⟩ => rfl)
  have er : ∀ k : Fin 128, ridx_main_v0 (ix2 a f) k = ix2 k f := fun k =>
    funext fun d => Fin.ext (by match d with | ⟨0, _⟩ => rfl | ⟨1, _⟩ => rfl)
  have eb : idx_main_v1 (idx_main_v2 (ix2 a f)) = ix1 f :=
    funext fun d => Fin.ext (by match d with | ⟨0, _⟩ => rfl)
  rw [val_main_v3_apply, val_main_v0_apply, val_main_v2_apply, val_main_v1_apply, eb]
  simp only [el, er]
  rfl

/-- The last bias, broadcast to [2, 16384, 32], at (e, r, f) is the bias at f. -/
theorem bias_at (x8 : A1 32) (e : Fin 2) (r : Fin 16384) (f : Fin 32) :
    val_main_v30 (F := Ideal) x8 (ix3 e r f) = x8 (ix1 f) := by
  have eb : idx_main_v29 (idx_main_v30 (ix3 e r f)) = ix1 f :=
    funext fun d => Fin.ext (by match d with | ⟨0, _⟩ => rfl)
  rw [val_main_v30_apply, val_main_v29_apply, eb]

/-- The first edge tensor's stage at (e, n, f) is its sheet: entry (e, n, a) of the transposed tensor is E(n, a, e),
    the two contractions run over the source a against the weights' and the dense layer's row a, and the two scalars
    are α and 1 − α. -/
theorem sheet0_at (x0 : A2 8192 128) (x1 : A3 8192 8192 2) (x3 : A0) (x4 : A2 128 32) (x5 : A1 32) (x6 : A2 8192 32)
    (x7 : A1 32) (e : Fin 2) (n : Fin 8192) (f : Fin 32) :
    val_main_v21 (F := Ideal) x0 x1 x3 x4 x5 x6 x7 (ix3 e n f)
      = sheet (x3 ix0) (Ideal.ofBits .f32 0x3F800000#32) x1 x6 (xdw x0 x4 x5) x7 e n f := by
  have eE6 : ∀ k : Fin 8192, idx_main_v4 (lidx_main_v6 (ix3 e n f) k) = ix3 n k e := fun k =>
    funext fun d => Fin.ext (by match d with | ⟨0, _⟩ => rfl | ⟨1, _⟩ => rfl | ⟨2, _⟩ => rfl)
  have eW6 : ∀ k : Fin 8192, ridx_main_v6 (ix3 e n f) k = ix2 k f := fun k =>
    funext fun d => Fin.ext (by match d with | ⟨0, _⟩ => rfl | ⟨1, _⟩ => rfl)
  have eE14 : ∀ k : Fin 8192, idx_main_v4 (lidx_main_v14 (ix3 e n f) k) = ix3 n k e := fun k =>
    funext fun d => Fin.ext (by match d with | ⟨0, _⟩ => rfl | ⟨1, _⟩ => rfl | ⟨2, _⟩ => rfl)
  have eW14 : ∀ k : Fin 8192, ridx_main_v14 (ix3 e n f) k = ix2 k f := fun k =>
    funext fun d => Fin.ext (by match d with | ⟨0, _⟩ => rfl | ⟨1, _⟩ => rfl)
  have eb : idx_main_v7 (idx_main_v8 (ix3 e n f)) = ix1 f :=
    funext fun d => Fin.ext (by match d with | ⟨0, _⟩ => rfl)
  rw [val_main_v21_apply, val_main_v17_apply, val_main_v16_apply, val_main_v9_apply, val_main_v6_apply,
    val_main_v8_apply, val_main_v7_apply, eb, val_main_v20_apply, val_main_v19_apply, val_main_v18_apply,
    val_main_cst_apply, val_main_v14_apply]
  simp only [val_main_v4_apply, eE6, eW6, eE14, eW14, xdw_at]
  rfl

/-- The second edge tensor's stage at (e, n, f) is its sheet, read as the first's. -/
theorem sheet1_at (x0 : A2 8192 128) (x2 : A3 8192 8192 2) (x3 : A0) (x4 : A2 128 32) (x5 : A1 32) (x6 : A2 8192 32)
    (x7 : A1 32) (e : Fin 2) (n : Fin 8192) (f : Fin 32) :
    val_main_v27 (F := Ideal) x0 x2 x3 x4 x5 x6 x7 (ix3 e n f)
      = sheet (x3 ix0) (Ideal.ofBits .f32 0x3F800000#32) x2 x6 (xdw x0 x4 x5) x7 e n f := by
  have eE10 : ∀ k : Fin 8192, idx_main_v5 (lidx_main_v10 (ix3 e n f) k) = ix3 n k e := fun k =>
    funext fun d => Fin.ext (by match d with | ⟨0, _⟩ => rfl | ⟨1, _⟩ => rfl | ⟨2, _⟩ => rfl)
  have eW10 : ∀ k : Fin 8192, ridx_main_v10 (ix3 e n f) k = ix2 k f := fun k =>
    funext fun d => Fin.ext (by match d with | ⟨0, _⟩ => rfl | ⟨1, _⟩ => rfl)
  have eE15 : ∀ k : Fin 8192, idx_main_v5 (lidx_main_v15 (ix3 e n f) k) = ix3 n k e := fun k =>
    funext fun d => Fin.ext (by match d with | ⟨0, _⟩ => rfl | ⟨1, _⟩ => rfl | ⟨2, _⟩ => rfl)
  have eW15 : ∀ k : Fin 8192, ridx_main_v15 (ix3 e n f) k = ix2 k f := fun k =>
    funext fun d => Fin.ext (by match d with | ⟨0, _⟩ => rfl | ⟨1, _⟩ => rfl)
  have eb : idx_main_v11 (idx_main_v12 (ix3 e n f)) = ix1 f :=
    funext fun d => Fin.ext (by match d with | ⟨0, _⟩ => rfl)
  rw [val_main_v27_apply, val_main_v23_apply, val_main_v22_apply, val_main_v13_apply, val_main_v10_apply,
    val_main_v12_apply, val_main_v11_apply, eb, val_main_v26_apply, val_main_v25_apply, val_main_v24_apply,
    val_main_cst_0_apply, val_main_v15_apply]
  simp only [val_main_v5_apply, eE10, eW10, eE15, eW15, xdw_at]
  rfl

/-- The joined array at a row of the first half, 8192 · 0 + n, is the first piece at row n. -/
theorem joined_at0 (x0 : A2 8192 128) (x1 x2 : A3 8192 8192 2) (x3 : A0) (x4 : A2 128 32) (x5 : A1 32) (x6 : A2 8192 32)
    (x7 : A1 32) (e : Fin 2) (n : Fin 8192) (f : Fin 32) :
    val_main_v28 (F := Ideal) x0 x1 x2 x3 x4 x5 x6 x7 (ix3 e (row 0 n) f)
      = val_main_v21 (F := Ideal) x0 x1 x3 x4 x5 x6 x7 (ix3 e n f) := by
  unfold val_main_v28
  exact concatenate_pair_apply_left (t := S2x16384x32) (s₁ := S2x8192x32) (s₂ := S2x8192x32) (1 : Fin 3) _ _
    concatenates_S2x8192x32_S2x8192x32_S2x16384x32_d1 (ix3 e (row 0 n) f) rfl (ix3 e n f)
    (fun b => match b with
      | ⟨0, _⟩ => rfl
      | ⟨1, _⟩ => by show n.val = 0 * 8192 + n.val; omega
      | ⟨2, _⟩ => rfl)

/-- The joined array at a row of the second half, 8192 · 1 + n, is the second piece at row n. -/
theorem joined_at1 (x0 : A2 8192 128) (x1 x2 : A3 8192 8192 2) (x3 : A0) (x4 : A2 128 32) (x5 : A1 32) (x6 : A2 8192 32)
    (x7 : A1 32) (e : Fin 2) (n : Fin 8192) (f : Fin 32) :
    val_main_v28 (F := Ideal) x0 x1 x2 x3 x4 x5 x6 x7 (ix3 e (row 1 n) f)
      = val_main_v27 (F := Ideal) x0 x2 x3 x4 x5 x6 x7 (ix3 e n f) := by
  unfold val_main_v28
  exact concatenate_pair_apply_right (t := S2x16384x32) (s₁ := S2x8192x32) (s₂ := S2x8192x32) (1 : Fin 3) _ _
    concatenates_S2x8192x32_S2x8192x32_S2x16384x32_d1 (ix3 e (row 1 n) f) rfl rfl (ix3 e n f)
    (fun b => match b with
      | ⟨0, _⟩ => fun _ => rfl
      | ⟨1, _⟩ => fun h => absurd rfl h
      | ⟨2, _⟩ => fun _ => rfl)
    (by show n.val + 8192 = 1 * 8192 + n.val; omega)

/-- The last stage at a row of the first half: the first edge tensor's sheet plus the bias. -/
theorem ref_at0 (x0 : A2 8192 128) (x1 x2 : A3 8192 8192 2) (x3 : A0) (x4 : A2 128 32) (x5 : A1 32) (x6 : A2 8192 32) (x7 x8 : A1 32)
    (e : Fin 2) (n : Fin 8192) (f : Fin 32) :
    val_main_v31 (F := Ideal) x0 x1 x2 x3 x4 x5 x6 x7 x8 (ix3 e (row 0 n) f)
      = Y (x3 ix0) (Ideal.ofBits .f32 0x3F800000#32) x1 x2 x6 (xdw x0 x4 x5) x7 x8 e 0 n f := by
  rw [val_main_v31_apply, joined_at0, sheet0_at, bias_at]
  rfl

/-- The last stage at a row of the second half: the second edge tensor's sheet plus the bias. -/
theorem ref_at1 (x0 : A2 8192 128) (x1 x2 : A3 8192 8192 2) (x3 : A0) (x4 : A2 128 32) (x5 : A1 32) (x6 : A2 8192 32) (x7 x8 : A1 32)
    (e : Fin 2) (n : Fin 8192) (f : Fin 32) :
    val_main_v31 (F := Ideal) x0 x1 x2 x3 x4 x5 x6 x7 x8 (ix3 e (row 1 n) f)
      = Y (x3 ix0) (Ideal.ofBits .f32 0x3F800000#32) x1 x2 x6 (xdw x0 x4 x5) x7 x8 e 1 n f := by
  rw [val_main_v31_apply, joined_at1, sheet1_at, bias_at]
  rfl

/-- The reference's last stage at (e, 8192 s + n, f) is the specification's value. -/
theorem ref_at (x0 : A2 8192 128) (x1 x2 : A3 8192 8192 2) (x3 : A0) (x4 : A2 128 32) (x5 : A1 32) (x6 : A2 8192 32) (x7 x8 : A1 32)
    (e s : Fin 2) (n : Fin 8192) (f : Fin 32) :
    val_main_v31 (F := Ideal) x0 x1 x2 x3 x4 x5 x6 x7 x8 (ix3 e (row s n) f)
      = Y (x3 ix0) (Ideal.ofBits .f32 0x3F800000#32) x1 x2 x6 (xdw x0 x4 x5) x7 x8 e s n f := by
  match s with
  | ⟨0, _⟩ => exact ref_at0 x0 x1 x2 x3 x4 x5 x6 x7 x8 e n f
  | ⟨1, _⟩ => exact ref_at1 x0 x1 x2 x3 x4 x5 x6 x7 x8 e n f

/-- The reference's last stage is the specification's array. -/
theorem ref_eq (x0 : A2 8192 128) (x1 x2 : A3 8192 8192 2) (x3 : A0) (x4 : A2 128 32) (x5 : A1 32) (x6 : A2 8192 32) (x7 x8 : A1 32) :
    val_main_v31 (F := Ideal) x0 x1 x2 x3 x4 x5 x6 x7 x8
      = G (x3 ix0) (Ideal.ofBits .f32 0x3F800000#32) x1 x2 x6 (xdw x0 x4 x5) x7 x8 :=
  eq_G_of_at _ _ _ _ _ _ _ _ _ (ref_at x0 x1 x2 x3 x4 x5 x6 x7 x8)

end Cert.ReferenceIdeal.RefValue

end
-- ==== Proof.lean ====
/-
  A graph layer on 8192 nodes: node features X [8192,128] go through a dense layer, xdw = X·W1 + b1 [8192,32]; each of
  two edge tensors E [8192,8192,2] (target, source, channel) is contracted over its source axis against the weights W2 and
  against xdw; a sheet mixes the two with the scalar α,  α·(E·W2 + b2) + (1 − α)·(E·xdw),  per channel; the two tensors'
  sheets are laid one after the other along the row axis and a bias is added: the result Y [2, 16384, 32].

  The reference does this with two transposes (the channel axis to the front) and four batched products. The kernel
  views each edge tensor as [8192, 16384] (column 2a + b is source a, channel b) and multiplies it, 128 rows at a
  grid point, by ONE [16384, 128] table whose row 2a + b carries the rows a of W2 and of xdw in the 64 columns of
  channel b and zeros in the other channel's 64 columns; the four 32-column slices of each product are the four
  contractions. On the extended reals the two are the same function of the arguments, index by index: the product's sum
  over the flat index 2a + b is the sum over a of the sum over b, and the term of the other channel is a product with
  zero, which is zero for every extended real. No cancelling and no distributivity is used, so the inputs' finiteness is
  never opened.

  The kernel's two frames are the generated ones. The kernel's value: the run over the generated segments with the
  result buffer kept (Proof/RunResult.lean), each launch's output array as the plain product of the arrays it reads
  (Proof/Region.lean), the host operations before and after the launches read at an index (Proof/HostHead.lean,
  Proof/HostTail.lean), and the regrouping law (Proof/Spec.lean), put together in Proof/KernelValue.lean. The
  reference's value: its run (Proof/RefRun.lean) read at an index (Proof/RefRead.lean, Proof/RefValue.lean). The
  idealization rewrote nothing, so there is nothing to preserve.
-/
import proofs.«112145_j83030307766284_1_alg».proof.Defs
import proofs.«112145_j83030307766284_1_alg».proof.Proof.Gen.Kernel
import proofs.«112145_j83030307766284_1_alg».proof.Proof.Gen.Kernel.Frame
import proofs.«112145_j83030307766284_1_alg».proof.Proof.Gen.KernelIdeal
import proofs.«112145_j83030307766284_1_alg».proof.Proof.Gen.KernelIdeal.Frame
import proofs.«112145_j83030307766284_1_alg».proof.Proof.Gen.ReferenceIdeal
import proofs.«112145_j83030307766284_1_alg».proof.Proof.Gen.Pre_finite_inputs
import proofs.«112145_j83030307766284_1_alg».proof.Proof.RunResult
import proofs.«112145_j83030307766284_1_alg».proof.Proof.KernelValue
import proofs.«112145_j83030307766284_1_alg».proof.Proof.RefRun
import proofs.«112145_j83030307766284_1_alg».proof.Proof.RefValue
import Idealize.ShloMosaic.Adequacy
import Idealize.ShloMosaic.Init

noncomputable section

namespace Cert.Proof

open Idealize.ShloMosaic Idealize.ShloMosaic.ValueIdx Idealize.SL.Sem Cert.Spec

/-- The result both programs end at: the specification's array of the kernel's arguments as launched. -/
def result (m : (ℓ : Loc Cert.KernelIdeal.nD Cert.KernelIdeal.τ Cert.KernelIdeal.sig) → Buf (Elt Ideal) ℓ) (c : Dev Cert.KernelIdeal.nD) : A3 2 16384 32 :=
  G ((m ((c.tc : Thread Cert.KernelIdeal.nD Cert.KernelIdeal.τ).loc Cert.KernelIdeal.main_arg3) : A0) ix0) (Ideal.ofBits .f32 0x3F800000#32)
    (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg6))
    (xdw (m ((c.tc : Thread Cert.KernelIdeal.nD Cert.KernelIdeal.τ).loc Cert.KernelIdeal.main_arg0)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)))
    (m ((c.tc : Thread Cert.KernelIdeal.nD Cert.KernelIdeal.τ).loc Cert.KernelIdeal.main_arg7)) (m ((c.tc : Thread Cert.KernelIdeal.nD Cert.KernelIdeal.τ).loc Cert.KernelIdeal.main_arg8))

/-- The reference runs, and its arguments end unchanged: its run with the results dropped. -/
theorem frame_reference : Cert.frame_ReferenceIdeal := fun m ρ _ =>
  (θ_run Cert.ReferenceIdeal.defs _ _).mono (fun _ h c => (h c).2.2.2) (Cert.ReferenceIdeal.ValueP.run (F := Ideal) m ρ)

/-- Run from memories that agree on the arguments, the idealized kernel and the idealized reference both end with the
    specification's array in their result buffer and the two edge tensors as launched. -/
theorem algebraic : Cert.algebraic_KernelIdeal_ReferenceIdeal := by
  intro m ρ m' ρ' _ hagree
  refine ⟨fun c => result m c, fun c => m ((c.tc : Thread Cert.KernelIdeal.nD Cert.KernelIdeal.τ).loc Cert.KernelIdeal.main_arg1), fun c => m ((c.tc : Thread Cert.KernelIdeal.nD Cert.KernelIdeal.τ).loc Cert.KernelIdeal.main_arg2), ?_, ?_⟩
  · refine (θ_run _ _ _).mono (fun r h c => ?_) (Cert.KernelIdeal.GenP.run_result (F := Ideal) m ρ)
    obtain ⟨h70, h0, h1, h2, h3, h4, h5, h6, h7, h8⟩ := h c
    exact ⟨h70.trans (Cert.KernelIdeal.KValue.kernel_value m ρ c), h1, h2, h0, h1, h2, h3, h4, h5, h6, h7, h8⟩
  · refine (θ_run _ _ _).mono (fun r h c => ?_) (Cert.ReferenceIdeal.ValueP.run (F := Ideal) m' ρ')
    obtain ⟨h31, h1, h2, hrest⟩ := h c
    obtain ⟨a0, a1, a2, a3, a4, a5, a6, a7, a8⟩ := hagree c
    refine ⟨?_, h1.trans a1, h2.trans a2, hrest⟩
    rw [h31, Cert.ReferenceIdeal.ReadP.val_main_v31_eq, Cert.ReferenceIdeal.RefValue.ref_eq, a0, a1, a2, a3, a4, a5, a6, a7, a8]
    rfl

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    frame_reference,
    trivial,
    algebraic⟩

end Cert.Proof

end
